-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536 : Shape := ⟨1, ![65536]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x256 .f32) (main_arg1 : FVec F S65536x256 .f32) (main_arg2 : FVec F S65536 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S65536x256 : Shape := ⟨2, ![65536, 256]⟩
abbrev S65536 : Shape := ⟨1, ![65536]⟩
abbrev S32x1x2048 : Shape := ⟨3, ![32, 1, 2048]⟩
abbrev S256x128 : Shape := ⟨2, ![256, 128]⟩
abbrev S2048x256 : Shape := ⟨2, ![2048, 256]⟩
abbrev S1x1x2048 : Shape := ⟨3, ![1, 1, 2048]⟩
abbrev S8x128 : Shape := ⟨2, ![8, 128]⟩
abbrev S256x1 : Shape := ⟨2, ![256, 1]⟩
abbrev S2048x1 : Shape := ⟨2, ![2048, 1]⟩
abbrev S1x2048 : Shape := ⟨2, ![1, 2048]⟩
abbrev S1x1 : Shape := ⟨2, ![1, 1]⟩
abbrev S1x2048x1 : Shape := ⟨3, ![1, 2048, 1]⟩
abbrev S1 : Shape := ⟨1, ![1]⟩
abbrev S1x1x1 : Shape := ⟨3, ![1, 1, 1]⟩
abbrev S32x8x128 : Shape := ⟨3, ![32, 8, 128]⟩
abbrev S32x1x1 : Shape := ⟨3, ![32, 1, 1]⟩
abbrev S32 : Shape := ⟨1, ![32]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .f32⟩
  | .hbm, ⟨3, _⟩ => ⟨S32x1x2048, .f32⟩
  | .hbm, ⟨4, _⟩ => ⟨S256x128, .f32⟩
  | .hbm, ⟨5, _⟩ => ⟨S32x8x128, .f32⟩
  | .hbm, ⟨6, _⟩ => ⟨S32x1x1, .f32⟩
  | .hbm, ⟨7, _⟩ => ⟨S32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x1x2048, .f32⟩
  | .local _ .vmem, ⟨5, _⟩ => ⟨S1x1x2048, .f32⟩
  | .local _ .vmem, ⟨6, _⟩ => ⟨S8x128, .f32⟩
  | .local _ .vmem, ⟨7, _⟩ => ⟨S8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536_S32x1x2048 : S65536.ShapeCasts S32x1x2048
  inb_S2048x256_S2048x256_0_0 : ∀ a, (![0, 0] : Fin 2 → Nat) a + S2048x256.size a ≤ S2048x256.size a
  h_S2048x256 : 0 < S2048x256.numel
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S1x1x2048_S1x2048 : S1x1x2048.ShapeCasts S1x2048
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S256x128_S32x8x128 : S256x128.ShapeCasts S32x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S2048x256_S256x1_S2048x1_1_0_0_1_n_n_wf : DotDims.WF S2048x256 S256x1 S2048x1 [1] [0] [0] [1] [] []
  dot_S1x2048_S2048x1_S1x1_1_0_0_1_n_n_wf : DotDims.WF S1x2048 S2048x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S32x1x2048.size a
  hwx0_2 : ∀ i : grid0.Coords, EltTy.bits .f32 = 32 ∨ (Rect.block (s := S32x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S256x128.size a
  hwx0_3 : ∀ i : grid0.Coords, EltTy.bits .f32 = 32 ∨ (Rect.block (s := S256x128) S8x128.size (cc0_transform_3 i) (hinb0_3 i)).WholeWords (EltTy.packing .f32)

variable [Facts₀]

def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1x2048_S2048x1_S1x1_1_0_0_1_n_n : DotDims S1x2048 S2048x1 S1x1 where
  lhsContracting := [1]
  rhsContracting := [0]
  lhsNonContracting := [0]
  rhsNonContracting := [1]
  lhsBatch := []
  rhsBatch := []
  wf := dot_S1x2048_S2048x1_S1x1_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536 : Shape := ⟨1, ![65536]⟩
abbrev S65536x1 : Shape := ⟨2, ![65536, 1]⟩
abbrev S72x128 : Shape := ⟨2, ![72, 128]⟩
abbrev S7864x256 : Shape := ⟨2, ![7864, 256]⟩
abbrev S7864x1 : Shape := ⟨2, ![7864, 1]⟩
abbrev S8x128 : Shape := ⟨2, ![8, 128]⟩
abbrev S256x1 : Shape := ⟨2, ![256, 1]⟩
abbrev S1x7864x1 : Shape := ⟨3, ![1, 7864, 1]⟩
abbrev S1 : Shape := ⟨1, ![1]⟩
abbrev S1x1x1 : Shape := ⟨3, ![1, 1, 1]⟩
abbrev S1x1 : Shape := ⟨2, ![1, 1]⟩
abbrev S9x8x128 : Shape := ⟨3, ![9, 8, 128]⟩
abbrev S9x1x1 : Shape := ⟨3, ![9, 1, 1]⟩
abbrev S9 : Shape := ⟨1, ![9]⟩
abbrev S_ : Shape := ⟨0, ![]⟩

abbrev nBuf : Space → Nat
  | .hbm => 12
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536, .f32⟩
  | .hbm, ⟨3, _⟩ => ⟨S65536x1, .f32⟩
  | .hbm, ⟨4, _⟩ => ⟨S72x128, .f32⟩
  | .hbm, ⟨5, _⟩ => ⟨S9x8x128, .f32⟩
  | .hbm, ⟨6, _⟩ => ⟨S9x1x1, .f32⟩
  | .hbm, ⟨7, _⟩ => ⟨S9, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S7864x256, .f32⟩
  | .local _ .vmem, ⟨1, _⟩ => ⟨S7864x256, .f32⟩
  | .local _ .vmem, ⟨2, _⟩ => ⟨S7864x256, .f32⟩
  | .local _ .vmem, ⟨3, _⟩ => ⟨S7864x256, .f32⟩
  | .local _ .vmem, ⟨4, _⟩ => ⟨S7864x1, .f32⟩
  | .local _ .vmem, ⟨5, _⟩ => ⟨S7864x1, .f32⟩
  | .local _ .vmem, ⟨6, _⟩ => ⟨S8x128, .f32⟩
  | .local _ .vmem, ⟨7, _⟩ => ⟨S8x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c8_i32 : BitVec 32 := 8#32
  let v19 : BitVec 1 := Scalar.cmpi .eq arg0 c8_i32
  let v20 : BitVec 32 := Scalar.extui v19
  let c0_i32 : BitVec 32 := 0#32
  let v21 : BitVec 1 := Scalar.cmpi .ne v20 c0_i32
  v21

def k0_cond2 (i : grid0.Coords) : BitVec 1 :=
  let arg0 : BitVec 32 := BitVec.ofNat 32 (i 0).val
  let c8_i32 : BitVec 32 := 8#32
  let v19 : BitVec 1 := Scalar.cmpi .eq arg0 c8_i32
  let v_true : BitVec 1 := 1#1
  let v22 : BitVec 1 := Scalar.xori v19 v_true
  let v23 : BitVec 32 := Scalar.extui v22
  let c0_i32_9 : BitVec 32 := 0#32
  let v24 : BitVec 1 := Scalar.cmpi .ne v23 c0_i32_9
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7864x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7864x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S7864x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S65536_S65536x1 : S65536.ShapeCasts S65536x1
  inb_S7864x256_S7864x256_0_0 : ∀ a, (![0, 0] : Fin 2 → Nat) a + S7864x256.size a ≤ S7864x256.size a
  h_S7864x256 : 0 < S7864x256.numel
  inb_S7864x1_S7864x1_0_0 : ∀ a, (![0, 0] : Fin 2 → Nat) a + S7864x1.size a ≤ S7864x1.size a
  h_S7864x1 : 0 < S7864x1.numel
  shapeCasts_S7864x1_S7864x1 : S7864x1.ShapeCasts S7864x1
  iota_S7864x1_d0_w32 : S7864x1.Iotas .tc 32 [0]
  shapeCasts_S7864x1_S1x7864x1 : S7864x1.ShapeCasts S1x7864x1
  reduces_S1x7864x1_S1 : S1x7864x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S72x128_S9x8x128 : S72x128.ShapeCasts S9x8x128
  slices_S9x8x128_S9x1x1_0_0_0 : S9x8x128.Slices ![0, 0, 0] S9x1x1
  shapeCasts_S9x1x1_S9 : S9x1x1.ShapeCasts S9
  reducesTo_S9_S_d0 : S9.ReducesTo [0] S_
  h_S_ : 0 < S_.numel
  dot_S7864x256_S256x1_S7864x1_1_0_0_1_n_n_wf : DotDims.WF S7864x256 S256x1 S7864x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S7864x256.size a < S65536x256.size a
  hwx0_0 : ∀ i : grid0.Coords, EltTy.bits .f32 = 32 ∨ (Rect.unit (s := S65536x256) (fun a => cc0_transform_0 i a * S7864x256.size a) (fun a => (Pipeline.Clip.of (cc0_transform_0 i a) (S7864x256.size a) (S65536x256.size a)).extent (S7864x256.size a)) fun a => Pipeline.Clip.inb (Pipeline.Clip.ok_of (hstart0_0 i a))).WholeWords (EltTy.packing .f32)
  hwxs0_0 : ∀ i : grid0.Coords, EltTy.bits .f32 = 32 ∨ (Rect.unit (s := S7864x256) (fun _ => 0) (fun a => (Pipeline.Clip.of (cc0_transform_0 i a) (S7864x256.size a) (S65536x256.size a)).extent (S7864x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S7864x256.size a < S65536x256.size a
  hwx0_1 : ∀ i : grid0.Coords, EltTy.bits .f32 = 32 ∨ (Rect.unit (s := S65536x256) (fun a => cc0_transform_1 i a * S7864x256.size a) (fun a => (Pipeline.Clip.of (cc0_transform_1 i a) (S7864x256.size a) (S65536x256.size a)).extent (S7864x256.size a)) fun a => Pipeline.Clip.inb (Pipeline.Clip.ok_of (hstart0_1 i a))).WholeWords (EltTy.packing .f32)
  hwxs0_1 : ∀ i : grid0.Coords, EltTy.bits .f32 = 32 ∨ (Rect.unit (s := S7864x256) (fun _ => 0) (fun a => (Pipeline.Clip.of (cc0_transform_1 i a) (S7864x256.size a) (S65536x256.size a)).extent (S7864x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S7864x1.size a < S65536x1.size a
  hwx0_2 : ∀ i : grid0.Coords, EltTy.bits .f32 = 32 ∨ (Rect.unit (s := S65536x1) (fun a => cc0_transform_2 i a * S7864x1.size a) (fun a => (Pipeline.Clip.of (cc0_transform_2 i a) (S7864x1.size a) (S65536x1.size a)).extent (S7864x1.size a)) fun a => Pipeline.Clip.inb (Pipeline.Clip.ok_of (hstart0_2 i a))).WholeWords (EltTy.packing .f32)
  hwxs0_2 : ∀ i : grid0.Coords, EltTy.bits .f32 = 32 ∨ (Rect.unit (s := S7864x1) (fun _ => 0) (fun a => (Pipeline.Clip.of (cc0_transform_2 i a) (S7864x1.size a) (S65536x1.size a)).extent (S7864x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S72x128.size a
  hwx0_3 : ∀ i : grid0.Coords, EltTy.bits .f32 = 32 ∨ (Rect.block (s := S72x128) S8x128.size (cc0_transform_3 i) (hinb0_3 i)).WholeWords (EltTy.packing .f32)

variable [Facts₀]

def dot_S7864x256_S256x1_S7864x1_1_0_0_1_n_n : DotDims S7864x256 S256x1 S7864x1 where
  lhsContracting := [1]
  rhsContracting := [0]
  lhsNonContracting := [0]
  rhsNonContracting := [1]
  lhsBatch := []
  rhsBatch := []
  wf := dot_S7864x256_S256x1_S7864x1_1_0_0_1_n_n_wf

abbrev win0_0 : Pipeline.Window sig grid0 :=
  Pipeline.Window.ofSpecClip (Memref.whole main_arg0) S7864x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S7864x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S7864x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v1) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== Proof.Spec.lean ====
/-
  The contrastive loss, as mathematics over the extended reals.

  For two N × 256 arrays X0, X1 and a weight column Y, row R contributes

      loss R = Y R · d R + (1 − Y R) · h R,    d R = ∑_q (X0 R q − X1 R q)² · 1,    h R = max (1 − √(d R)) 0 ².

  Both programs cut the 65536 rows into blocks, reduce every block to one number and add the blocks up; the
  sum is then scaled by 2⁻¹⁷. They differ in the blocks and in how a block is reduced:

  * 32 blocks of 2048 rows, a block reduced as  (∑_r Y r · (d r − h r)) + ∑_r h r   (`kpart`);
  * 9 blocks of 7864 rows, the last one reaching 5240 rows past the array's end; a block is reduced as
    ∑_r loss r over the rows that lie inside the array, a row outside it contributing zero (`rpartMask`).

  Everything here is stated for a block of any height T, as functions of the block's rows, so that "what a block
  reduces to" depends only on the rows it names.  The words 1.0, 0.0 and 2⁻¹⁷ are kept as the binary words the
  programs print; nothing in this file evaluates them.
-/
import Idealize.ShloMosaic.PureOps.Ideal
import Idealize.ShloMosaic.Lib.ValueIdx

noncomputable section

open scoped BigOperators

namespace Cert.Loss

open Idealize.ShloMosaic

/-- The word of 1.0, of 0.0 and of 2⁻¹⁷, read as extended reals. -/
abbrev one : EReal := Ideal.ofBits .f32 0x3F800000#32
abbrev zero : EReal := Ideal.ofBits .f32 0x00000000#32
abbrev scale : EReal := Ideal.ofBits .f32 0x37000000#32

/-! ## One block of T rows -/

section Block

variable {T : Nat}

/-- The squared distance of row `r`: the sum over the 256 columns of the squared difference, each times 1. -/
def bdsq (A B : Fin T → Fin 256 → EReal) (r : Fin T) : EReal :=
  ∑ q : Fin 256, ((A r q - B r q) * (A r q - B r q)) * one

/-- The squared hinge of row `r`: max (1 − √d) 0, squared. -/
def bhinge (A B : Fin T → Fin 256 → EReal) (r : Fin T) : EReal :=
  max (one - Ideal.sqrt (bdsq A B r)) zero * max (one - Ideal.sqrt (bdsq A B r)) zero

/-- Row `r`'s loss: the weight times the squared distance plus the complementary weight times the squared hinge. -/
def bloss (A B : Fin T → Fin 256 → EReal) (W : Fin T → EReal) (r : Fin T) : EReal :=
  W r * bdsq A B r + (one - W r) * bhinge A B r

/-- A block reduced the first way: the weighted sum of d − h, plus the sum of h. -/
def kpart (A B : Fin T → Fin 256 → EReal) (W : Fin T → EReal) : EReal :=
  (∑ r : Fin T, W r * (bdsq A B r - bhinge A B r)) + ∑ r : Fin T, bhinge A B r

/-- A block reduced the second way, every row counted. -/
def rpartAll (A B : Fin T → Fin 256 → EReal) (W : Fin T → EReal) : EReal :=
  ∑ r : Fin T, bloss A B W r

/-- A block reduced the second way, only its first `n` rows counted; a later row contributes the zero word. -/
def rpartMask (n : Nat) (A B : Fin T → Fin 256 → EReal) (W : Fin T → EReal) : EReal :=
  ∑ r : Fin T, if r.val < n then bloss A B W r else zero

end Block

/-! ## The 65536 rows cut into blocks -/

/-- Row `r` of the `i`-th block of 2048 rows. -/
def krow (i : Fin 32) (r : Fin 2048) : Fin 65536 := ⟨2048 * i.val + r.val, by omega⟩

/-- The `i`-th block of 2048 rows of a two-dimensional array, and of a column. -/
def kA (X : Fin 65536 → Fin 256 → EReal) (i : Fin 32) : Fin 2048 → Fin 256 → EReal := fun r q => X (krow i r) q
def kW (Y : Fin 65536 → EReal) (i : Fin 32) : Fin 2048 → EReal := fun r => Y (krow i r)

/-- The `j`-th block of 7864 rows; a row past the array's end reads as the zero word (it is never counted). -/
def rA (X : Fin 65536 → Fin 256 → EReal) (j : Fin 9) : Fin 7864 → Fin 256 → EReal :=
  fun r q => if h : 7864 * j.val + r.val < 65536 then X ⟨7864 * j.val + r.val, h⟩ q else zero
def rW (Y : Fin 65536 → EReal) (j : Fin 9) : Fin 7864 → EReal :=
  fun r => if h : 7864 * j.val + r.val < 65536 then Y ⟨7864 * j.val + r.val, h⟩ else zero

/-- How many rows of the `j`-th block of 7864 lie inside the array (all 7864 for j < 8, 2624 for j = 8). -/
def valid (j : Fin 9) : Nat := 65536 - 7864 * j.val

/-- The 32 blocks of 2048 rows added up. -/
def ktotal (X0 X1 : Fin 65536 → Fin 256 → EReal) (Y : Fin 65536 → EReal) : EReal :=
  ∑ i : Fin 32, kpart (kA X0 i) (kA X1 i) (kW Y i)

/-- The 9 blocks of 7864 rows added up. -/
def rtotal (X0 X1 : Fin 65536 → Fin 256 → EReal) (Y : Fin 65536 → EReal) : EReal :=
  ∑ j : Fin 9, rpartMask (valid j) (rA X0 j) (rA X1 j) (rW Y j)

/-- The blocks' sum, started from the zero word, scaled by 2⁻¹⁷. -/
def final (s : EReal) : EReal := (zero + s) * scale

/-! ## Arrays read by rows -/

/-- A 65536 × 256 array as a function of row and column; a vector of 65536 entries as a function of the row. -/
def rows (x : (⟨2, ![65536, 256]⟩ : Shape).Idx → EReal) : Fin 65536 → Fin 256 → EReal :=
  fun R q => x (ValueIdx.ix2 R q)
def rows1 (y : (⟨1, ![65536]⟩ : Shape).Idx → EReal) : Fin 65536 → EReal :=
  fun R => y (ValueIdx.ix1 R)

end Cert.Loss

end
-- ==== Proof.SpecLaw.lean ====
/-
  The two ways of cutting the 65536 rows into blocks add up to the same number when every entry is a real number.
-/
import proofs.«155596_g2000500922530033_pallasbulk_741_2_alg».proof.Proof.Spec

noncomputable section

open scoped BigOperators

namespace Cert.Loss

open Idealize.ShloMosaic

/-
  Road: with real entries every quantity of the specification is the coercion of a real number (the squared
  distance is a sum of squares, hence non-negative, so its square root is the real square root; max, sums,
  products and differences of real numbers stay real).  Over the reals a row's two forms agree,
  y · d + (1 − y) · h = y · (d − h) + h, and both block decompositions enumerate the rows 0 … 65535 once each:
  32 · 2048 = 65536, and 9 · 7864 = 65536 + 5240 with the last 5240 rows counted as zero.
-/

/-! ## The two constant words -/

/-- The word 0x3F800000 is the real number 1. -/
theorem one_eq : one = ((1 : ℝ) : EReal) := by
  have h : Ideal.ofBits .f32 0x3F800000#32 = 1 := by
    simp [Ideal.ofBits, Ideal.ieee, -EReal.coe_mul]; norm_num
  rw [EReal.coe_one]; exact h

/-- The word 0x00000000 is the real number 0. -/
theorem zero_eq : zero = ((0 : ℝ) : EReal) := by
  have h : Ideal.ofBits .f32 0x00000000#32 = 0 := by simp [Ideal.ofBits, Ideal.ieee]
  rw [EReal.coe_zero]; exact h

/-! ## Coercion from the reals commutes with finite sums and with max -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (x y : ℝ) : ((max x y : ℝ) : EReal) = max (x : EReal) (y : EReal) :=
  EReal.coe_strictMono.monotone.map_max

/-! ## One row over the reals -/

/-- The squared distance of two real rows. -/
def rd (u v : Fin 256 → ℝ) : ℝ := ∑ q : Fin 256, ((u q - v q) * (u q - v q)) * 1

/-- The squared hinge of two real rows. -/
def rh (u v : Fin 256 → ℝ) : ℝ :=
  max (1 - Real.sqrt (rd u v)) 0 * max (1 - Real.sqrt (rd u v)) 0

/-- The loss of two real rows with weight w. -/
def rl (u v : Fin 256 → ℝ) (w : ℝ) : ℝ := w * rd u v + (1 - w) * rh u v

theorem rd_nonneg (u v : Fin 256 → ℝ) : 0 ≤ rd u v := by
  unfold rd
  refine Finset.sum_nonneg (fun q _ => ?_)
  rw [mul_one]; exact mul_self_nonneg _

/-- Over the reals the two forms of a row's loss agree. -/
theorem rl_eq (u v : Fin 256 → ℝ) (w : ℝ) : w * (rd u v - rh u v) + rh u v = rl u v w := by
  unfold rl; ring

/-! ## A block with real entries -/

section Block

variable {T : Nat}

theorem bdsq_coe (a b : Fin T → Fin 256 → ℝ) (r : Fin T) :
    bdsq (fun r q => ((a r q : ℝ) : EReal)) (fun r q => ((b r q : ℝ) : EReal)) r
      = ((rd (a r) (b r) : ℝ) : EReal) := by
  unfold bdsq rd
  rw [coe_sum, one_eq]
  refine Finset.sum_congr rfl (fun q _ => ?_)
  simp only [EReal.coe_mul, EReal.coe_sub]

theorem bhinge_coe (a b : Fin T → Fin 256 → ℝ) (r : Fin T) :
    bhinge (fun r q => ((a r q : ℝ) : EReal)) (fun r q => ((b r q : ℝ) : EReal)) r
      = ((rh (a r) (b r) : ℝ) : EReal) := by
  unfold bhinge rh
  rw [bdsq_coe, Ideal.sqrt_coe, if_neg (not_lt.mpr (rd_nonneg _ _)), one_eq, zero_eq,
    EReal.coe_mul, coe_max, EReal.coe_sub]

theorem bloss_coe (a b : Fin T → Fin 256 → ℝ) (w : Fin T → ℝ) (r : Fin T) :
    bloss (fun r q => ((a r q : ℝ) : EReal)) (fun r q => ((b r q : ℝ) : EReal))
        (fun r => ((w r : ℝ) : EReal)) r
      = ((rl (a r) (b r) (w r) : ℝ) : EReal) := by
  unfold bloss rl
  rw [bdsq_coe, bhinge_coe, one_eq, EReal.coe_add, EReal.coe_mul, EReal.coe_mul, EReal.coe_sub]

theorem kpart_coe (a b : Fin T → Fin 256 → ℝ) (w : Fin T → ℝ) :
    kpart (fun r q => ((a r q : ℝ) : EReal)) (fun r q => ((b r q : ℝ) : EReal))
        (fun r => ((w r : ℝ) : EReal))
      = ((∑ r : Fin T, rl (a r) (b r) (w r) : ℝ) : EReal) := by
  unfold kpart
  simp only [bdsq_coe, bhinge_coe]
  rw [coe_sum, ← Finset.sum_add_distrib]
  refine Finset.sum_congr rfl (fun r _ => ?_)
  rw [← rl_eq, EReal.coe_add, EReal.coe_mul, EReal.coe_sub]

theorem rpartMask_coe (n : Nat) (a b : Fin T → Fin 256 → ℝ) (w : Fin T → ℝ) :
    rpartMask n (fun r q => ((a r q : ℝ) : EReal)) (fun r q => ((b r q : ℝ) : EReal))
        (fun r => ((w r : ℝ) : EReal))
      = ((∑ r : Fin T, (if r.val < n then rl (a r) (b r) (w r) else 0) : ℝ) : EReal) := by
  unfold rpartMask
  simp only [bloss_coe, zero_eq]
  rw [coe_sum]
  refine Finset.sum_congr rfl (fun r _ => ?_)
  split_ifs <;> rfl

end Block

/-! ## Index bookkeeping over the reals -/

/-- A sum over the first m · n naturals, cut into m runs of n. -/
theorem sum_range_blocks (g : ℕ → ℝ) (n m : ℕ) :
    ∑ k ∈ Finset.range (m * n), g k = ∑ i ∈ Finset.range m, ∑ r ∈ Finset.range n, g (n * i + r) := by
  induction m with
  | zero => simp
  | succ m ih =>
    rw [Nat.succ_mul, Finset.sum_range_add, Finset.sum_range_succ, ih, Nat.mul_comm m n]

/-- A function of the 65536 rows, continued by zero to all naturals. -/
def ext0 (F : Fin 65536 → ℝ) (k : ℕ) : ℝ := if h : k < 65536 then F ⟨k, h⟩ else 0

theorem ext0_val (F : Fin 65536 → ℝ) (R : Fin 65536) : ext0 F R.val = F R := by
  unfold ext0; rw [dif_pos R.isLt]

theorem sum_rows_eq (F : Fin 65536 → ℝ) : ∑ R : Fin 65536, F R = ∑ k ∈ Finset.range 65536, ext0 F k := by
  rw [← Fin.sum_univ_eq_sum_range]
  exact Finset.sum_congr rfl (fun R _ => (ext0_val F R).symm)

/-- The 32 blocks of 2048 rows enumerate every row once. -/
theorem sum_kblocks (F : Fin 65536 → ℝ) :
    ∑ i : Fin 32, ∑ r : Fin 2048, F (krow i r) = ∑ R : Fin 65536, F R := by
  rw [sum_rows_eq, show (65536 : ℕ) = 32 * 2048 from rfl, sum_range_blocks,
    ← Fin.sum_univ_eq_sum_range (fun i => ∑ r ∈ Finset.range 2048, ext0 F (2048 * i + r)) 32]
  refine Finset.sum_congr rfl (fun i _ => ?_)
  rw [← Fin.sum_univ_eq_sum_range (fun r => ext0 F (2048 * i.val + r)) 2048]
  refine Finset.sum_congr rfl (fun r _ => ?_)
  exact (ext0_val F (krow i r)).symm

/-- The 9 blocks of 7864 rows, a row past the end counted as zero, enumerate every row once. -/
theorem sum_rblocks (F : Fin 65536 → ℝ) :
    ∑ j : Fin 9, ∑ r : Fin 7864, ext0 F (7864 * j.val + r.val) = ∑ R : Fin 65536, F R := by
  have hsplit : ∑ k ∈ Finset.range (9 * 7864), ext0 F k = ∑ k ∈ Finset.range 65536, ext0 F k := by
    rw [show (9 * 7864 : ℕ) = 65536 + 5240 from rfl, Finset.sum_range_add]
    have hz : ∑ x ∈ Finset.range 5240, ext0 F (65536 + x) = 0 := by
      refine Finset.sum_eq_zero (fun x _ => ?_)
      unfold ext0; rw [dif_neg (by omega)]
    rw [hz, add_zero]
  rw [sum_rows_eq, ← hsplit, sum_range_blocks,
    ← Fin.sum_univ_eq_sum_range (fun j => ∑ r ∈ Finset.range 7864, ext0 F (7864 * j + r)) 9]
  refine Finset.sum_congr rfl (fun j _ => ?_)
  rw [← Fin.sum_univ_eq_sum_range (fun r => ext0 F (7864 * j.val + r)) 7864]

/-! ## The blocks of arrays with real entries -/

theorem kA_coe (a : Fin 65536 → Fin 256 → ℝ) (i : Fin 32) :
    kA (fun R q => ((a R q : ℝ) : EReal)) i = fun r q => ((a (krow i r) q : ℝ) : EReal) := rfl

theorem kW_coe (y : Fin 65536 → ℝ) (i : Fin 32) :
    kW (fun R => ((y R : ℝ) : EReal)) i = fun r => ((y (krow i r) : ℝ) : EReal) := rfl

/-- A block of 7864 rows of a real array, a row past the end read as zero. -/
def ra (a : Fin 65536 → Fin 256 → ℝ) (j : Fin 9) : Fin 7864 → Fin 256 → ℝ :=
  fun r q => if h : 7864 * j.val + r.val < 65536 then a ⟨7864 * j.val + r.val, h⟩ q else 0
def rwgt (y : Fin 65536 → ℝ) (j : Fin 9) : Fin 7864 → ℝ :=
  fun r => if h : 7864 * j.val + r.val < 65536 then y ⟨7864 * j.val + r.val, h⟩ else 0

theorem rA_coe (a : Fin 65536 → Fin 256 → ℝ) (j : Fin 9) :
    rA (fun R q => ((a R q : ℝ) : EReal)) j = fun r q => ((ra a j r q : ℝ) : EReal) := by
  funext r q
  unfold rA ra
  by_cases h : 7864 * j.val + r.val < 65536
  · rw [dif_pos h, dif_pos h]
  · rw [dif_neg h, dif_neg h, zero_eq]

theorem rW_coe (y : Fin 65536 → ℝ) (j : Fin 9) :
    rW (fun R => ((y R : ℝ) : EReal)) j = fun r => ((rwgt y j r : ℝ) : EReal) := by
  funext r
  unfold rW rwgt
  by_cases h : 7864 * j.val + r.val < 65536
  · rw [dif_pos h, dif_pos h]
  · rw [dif_neg h, dif_neg h, zero_eq]

/-- A counted row of a block of 7864 is the row of the array it names; an uncounted one gives zero. -/
theorem rmask_term (a b : Fin 65536 → Fin 256 → ℝ) (y : Fin 65536 → ℝ) (j : Fin 9) (r : Fin 7864) :
    (if r.val < valid j then rl (ra a j r) (ra b j r) (rwgt y j r) else 0)
      = ext0 (fun R => rl (a R) (b R) (y R)) (7864 * j.val + r.val) := by
  unfold ext0
  by_cases h : 7864 * j.val + r.val < 65536
  · have hv : r.val < valid j := by unfold valid; omega
    rw [if_pos hv, dif_pos h]
    have ha : ra a j r = a ⟨7864 * j.val + r.val, h⟩ := by funext q; unfold ra; rw [dif_pos h]
    have hb : ra b j r = b ⟨7864 * j.val + r.val, h⟩ := by funext q; unfold ra; rw [dif_pos h]
    have hy : rwgt y j r = y ⟨7864 * j.val + r.val, h⟩ := by unfold rwgt; rw [dif_pos h]
    rw [ha, hb, hy]
  · have hv : ¬ r.val < valid j := by unfold valid; omega
    rw [if_neg hv, dif_neg h]

/-! ## The two totals -/

theorem ktotal_coe (a b : Fin 65536 → Fin 256 → ℝ) (y : Fin 65536 → ℝ) :
    ktotal (fun R q => ((a R q : ℝ) : EReal)) (fun R q => ((b R q : ℝ) : EReal))
        (fun R => ((y R : ℝ) : EReal))
      = ((∑ R : Fin 65536, rl (a R) (b R) (y R) : ℝ) : EReal) := by
  unfold ktotal
  simp only [kA_coe, kW_coe, kpart_coe]
  rw [← coe_sum, sum_kblocks (fun R => rl (a R) (b R) (y R))]

theorem rtotal_coe (a b : Fin 65536 → Fin 256 → ℝ) (y : Fin 65536 → ℝ) :
    rtotal (fun R q => ((a R q : ℝ) : EReal)) (fun R q => ((b R q : ℝ) : EReal))
        (fun R => ((y R : ℝ) : EReal))
      = ((∑ R : Fin 65536, rl (a R) (b R) (y R) : ℝ) : EReal) := by
  unfold rtotal
  simp only [rA_coe, rW_coe, rpartMask_coe, rmask_term]
  rw [← coe_sum, sum_rblocks (fun R => rl (a R) (b R) (y R))]

/-- With every entry of the three arrays a real number, the 32 blocks of 2048 rows, each reduced as
    (∑ Y · (d − h)) + ∑ h, and the 9 blocks of 7864 rows, each reduced as the sum of Y · d + (1 − Y) · h over its rows
    inside the array, add up to the same extended real. -/
theorem total_eq (X0 X1 : Fin 65536 → Fin 256 → EReal) (Y : Fin 65536 → EReal)
    (h0 : ∀ R q, ∃ a : ℝ, X0 R q = (a : EReal)) (h1 : ∀ R q, ∃ a : ℝ, X1 R q = (a : EReal))
    (hY : ∀ R, ∃ a : ℝ, Y R = (a : EReal)) :
    ktotal X0 X1 Y = rtotal X0 X1 Y := by
  choose a0 ha0 using h0
  choose a1 ha1 using h1
  choose y hy using hY
  obtain rfl : X0 = fun R q => ((a0 R q : ℝ) : EReal) := by funext R q; exact ha0 R q
  obtain rfl : X1 = fun R q => ((a1 R q : ℝ) : EReal) := by funext R q; exact ha1 R q
  obtain rfl : Y = fun R => ((y R : ℝ) : EReal) := by funext R; exact hy R
  rw [ktotal_coe, rtotal_coe]

end Cert.Loss

end
-- ==== Proof.Finite.lean ====
/-
  Under the precondition every entry of the three argument arrays is a real number.
-/
import proofs.«155596_g2000500922530033_pallasbulk_741_2_alg».proof.Defs
import proofs.«155596_g2000500922530033_pallasbulk_741_2_alg».proof.Proof.Gen.KernelIdeal
import proofs.«155596_g2000500922530033_pallasbulk_741_2_alg».proof.Proof.Gen.Pre_finite_inputs
import Idealize.ShloMosaic.Lib.ReduceAll
import Idealize.ShloMosaic.Lib.ValueIdx

noncomputable section

open scoped BigOperators

namespace Cert.Loss

open Cert.KernelIdeal
open Idealize.ShloMosaic Idealize.ShloMosaic.TcCoe Idealize.SL.Sem

instance : Subsingleton Cert.Pre_finite_inputs.S_.Idx := ⟨fun a b => funext fun d => d.elim0⟩

/-- An extended real whose absolute value `max x (-x)` lies below +∞ is neither infinity: it is a real number. -/
theorem real_of_abs_lt_top (x : EReal) (h : max x (-x) < ⊤) : ∃ a : ℝ, x = (a : EReal) := by
  induction x using EReal.rec with
  | bot => simp at h
  | coe a => exact ⟨a, rfl⟩
  | top => simp at h

/-- The f32 pattern `0x7F800000` (exponent all ones, fraction zero, sign clear) denotes +∞. -/
theorem ofBits_inf_f32 : Ideal.ofBits .f32 0x7F800000#32 = (⊤ : EReal) := by
  simp [Ideal.ofBits, Ideal.ieee]

/-- The comparison `|x| < +∞` came out 1: then `x` is a real number. -/
theorem real_of_cmp_one (x : EReal)
    (e : Ideal.cmp .olt (max x (-x)) (Ideal.ofBits .f32 0x7F800000#32) = 1#1) : ∃ a : ℝ, x = (a : EReal) := by
  rw [ofBits_inf_f32] at e
  refine real_of_abs_lt_top x ?_
  by_contra hn
  simp [Ideal.cmp, hn] at e

/-- The precondition says each argument's absolute values lie below +∞: every entry is then neither infinity,
    that is, a real number. -/
theorem finite_of_pre (m : (ℓ : Loc nD τ sig) → Buf (Elt Ideal) ℓ) (h : Cert.Pre_KernelIdeal m) (c : Dev nD) :
    (∀ i, ∃ a : ℝ, (m ((c : Thread nD τ).loc main_arg0) : S65536x256.Idx → EReal) i = (a : EReal))
    ∧ (∀ i, ∃ a : ℝ, (m ((c : Thread nD τ).loc main_arg1) : S65536x256.Idx → EReal) i = (a : EReal))
    ∧ (∀ i, ∃ a : ℝ, (m ((c : Thread nD τ).loc main_arg2) : S65536.Idx → EReal) i = (a : EReal)) := by
  -- the predicate's one result word is 1
  have h0 := congrFun (h c) ValueIdx.ix0
  dsimp only [Cert.Pre_finite_inputs.fn] at h0
  -- the three conjunctions over all entries, themselves conjoined, are each 1
  obtain ⟨h01, h2⟩ := IntOp.andi_eq_one.1 h0
  obtain ⟨h0', h1⟩ := IntOp.andi_eq_one.1 h01
  -- a conjunction over all entries that is 1 has a 1 at every entry: that entry's comparison `|x| < +∞` holds
  refine ⟨fun i => ?_, fun i => ?_, fun i => ?_⟩
  · exact real_of_cmp_one _ (Host.reduce_andi_all _ _ _ _ _ h0' i)
  · exact real_of_cmp_one _ (Host.reduce_andi_all _ _ _ _ _ h1 i)
  · exact real_of_cmp_one _ (Host.reduce_andi_all _ _ _ _ _ h2 i)

end Cert.Loss

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KernelPayload.lean ====
/-
  What the 2048-row program's body stores, read at an entry: every entry of the 8 × 128 block is the block's
  reduced loss (∑_r Y r · (d r − h r)) + ∑_r h r of the three blocks it loaded.
-/
import proofs.«155596_g2000500922530033_pallasbulk_741_2_alg».proof.Proof.Gen.KernelIdeal.Skeleton
import proofs.«155596_g2000500922530033_pallasbulk_741_2_alg».proof.Proof.Spec
import proofs.«155596_g2000500922530033_pallasbulk_741_2_alg».proof.Proof.LibDotPlain
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Loss.Kern

open Cert.KernelIdeal Cert.KernelIdeal.Gen
open Idealize.ShloMosaic Idealize.ShloMosaic.ValueIdx

/-! ## The two products' dimension numbers

Both products contract the left factor's axis 1 with the right factor's axis 0 and have no batch axis: their dimension
numbers are the plain M × K by K × N ones, field by field. -/

/-- The 2048 × 256 by 256 × 1 product's dimension numbers are the plain ones. -/
theorem dotRows_eq : dot_S2048x256_S256x1_S2048x1_1_0_0_1_n_n = DotDims.plain 2048 256 1 := rfl

/-- The 1 × 2048 by 2048 × 1 product's dimension numbers are the plain ones. -/
theorem dotCol_eq : dot_S1x2048_S2048x1_S1x1_1_0_0_1_n_n = DotDims.plain 1 2048 1 := rfl

/-! ## The two columns the payload computes from the blocks -/

/-- The column of squared distances: the squared differences times the 256 × 1 column of the word 1.0, summed into the
    zero column. -/
abbrev dcol (x0 x1 : FVec Ideal S2048x256 .f32) : FVec Ideal S2048x1 .f32 :=
  matmul dot_S2048x256_S256x1_S2048x1_1_0_0_1_n_n none (mulf (subf x0 x1) (subf x0 x1))
    (broadcast S256x1 (Scalar.ofBits (F := Ideal) .f32 0x3F800000#32)) (constant (F := Ideal) S2048x1 .f32 0x00000000#32)

/-- The column of squared hinges of a column d: entry by entry max (1 − √d) 0, times itself. -/
abbrev hcol (d : FVec Ideal S2048x1 .f32) : FVec Ideal S2048x1 .f32 :=
  mulf
    (maximumf (subf (broadcast S2048x1 (Scalar.ofBits (F := Ideal) .f32 0x3F800000#32)) (sqrt d))
      (broadcast S2048x1 (Scalar.ofBits (F := Ideal) .f32 0x00000000#32)))
    (maximumf (subf (broadcast S2048x1 (Scalar.ofBits (F := Ideal) .f32 0x3F800000#32)) (sqrt d))
      (broadcast S2048x1 (Scalar.ofBits (F := Ideal) .f32 0x00000000#32)))

/-- At row r the first column is the squared distance d r = ∑_q (x0 r q − x1 r q)² · 1 of the two blocks' rows: the
    product into the zero column read at (r, 0) is the sum over the 256 columns of the factors' products. -/
theorem dcol_apply (x0 x1 : FVec Ideal S2048x256 .f32) (r : Fin 2048) (c : Fin 1) :
    dcol x0 x1 (ix2 r c) = bdsq (fun r q => (x0 (ix2 r q) : EReal)) (fun r q => (x1 (ix2 r q) : EReal)) r := by
  unfold dcol
  rw [dotRows_eq]
  exact Cert.LibDotPlain.matmul_zero_plain 2048 256 1 none _ _ r c

/-- At row r the second column is the squared hinge h r = max (1 − √(d r)) 0 ²: every operation in it acts entry by
    entry, and the entry of the first column is d r. -/
theorem hcol_apply (x0 x1 : FVec Ideal S2048x256 .f32) (r : Fin 2048) (c : Fin 1) :
    hcol (dcol x0 x1) (ix2 r c)
      = bhinge (fun r q => (x0 (ix2 r q) : EReal)) (fun r q => (x1 (ix2 r q) : EReal)) r := by
  show max (one - Ideal.sqrt (dcol x0 x1 (ix2 r c))) zero * max (one - Ideal.sqrt (dcol x0 x1 (ix2 r c))) zero = _
  rw [dcol_apply]
  rfl

/-! ## The layout steps and the two sums, each over variables of the vectors' own types -/

/-- The weight block re-laid as one row: its entry (0, r) is the block's entry (0, 0, r). The first cast keeps the
    shape and is the identity; the second drops the leading unit axis. -/
theorem wrow_apply (x2 : FVec Ideal S1x1x2048 .f32) (h1 : S1x1x2048.ShapeCasts S1x1x2048)
    (h2 : S1x1x2048.ShapeCasts S1x2048) (u : Fin 1) (r : Fin 2048) :
    shapeCast S1x2048 (shapeCast S1x1x2048 x2 h1) h2 (ix2 u r) = x2 (ix3 0 u r) := by
  rw [shapeCast_self]
  exact shapeCast_1ab_ab_apply x2 h2 u r

/-- The row times a column, summed into the zero entry: ∑_r w (0, r) · v (r, 0). -/
theorem wsum_apply (w : FVec Ideal S1x2048 .f32) (v : FVec Ideal S2048x1 .f32) (a b : Fin 1) :
    matmul dot_S1x2048_S2048x1_S1x1_1_0_0_1_n_n none w v (constant (F := Ideal) S1x1 .f32 0x00000000#32) (ix2 a b)
      = ∑ r : Fin 2048, w (ix2 a r) * v (ix2 r b) := by
  rw [dotCol_eq]
  exact Cert.LibDotPlain.matmul_zero_plain 1 2048 1 none w v a b

/-- The indices of a 1 × 2048 × 1 array are its 2048 middle coordinates: the two outer axes have one position each. -/
def midEquiv : Fin 2048 ≃ S1x2048x1.Idx where
  toFun r := ix3 (0 : Fin 1) r (0 : Fin 1)
  invFun i := i 1
  left_inv _ := rfl
  right_inv i := by
    funext a
    match a with
    | ⟨0, _⟩ => exact Fin.ext (show (0 : Nat) = (i 0).val by have h : (i 0).val < 1 := (i 0).isLt; omega)
    | ⟨1, _⟩ => rfl
    | ⟨2, _⟩ => exact Fin.ext (show (0 : Nat) = (i 2).val by have h : (i 2).val < 1 := (i 2).isLt; omega)

/-- A 2048 × 1 column re-laid as 1 × 2048 × 1 and added up over its last two axes into a shape of one entry: the sum
    of the column's 2048 entries. The result's only axis has size one, so the reduction is the sum over every source
    index, and the source indices are renamed by their middle coordinate. -/
theorem colsum_apply (v : FVec Ideal S2048x1 .f32) (h : S2048x1.ShapeCasts S1x2048x1)
    (hr : S1x2048x1.Reduces [1, 2] S1) (hφ : FKind.Formats .f32)
    (hacc : (0x00000000#32 : BitVec 32) = FKind.add.neutral .f32 hφ) (j : S1.Idx) :
    multiReduction (F := Ideal) .add [1, 2] S1 (shapeCast S1x2048x1 v h) 0x00000000#32 hr hφ hacc j
      = ∑ r : Fin 2048, v (ix2 r (0 : Fin 1)) := by
  refine (Ideal.multiReduction_add_total (shapeCast S1x2048x1 v h) 0x00000000#32 hr
    (fun b => match b with | ⟨0, _⟩ => rfl) hφ hacc j).trans ?_
  rw [← Equiv.sum_comp midEquiv]
  exact Finset.sum_congr rfl fun r _ => shapeCast_ab_1ab_apply v h (0 : Fin 1) r (0 : Fin 1)

/-- A one-entry vector re-laid as 1 × 1 × 1 and read at (0, 0, 0) is its one entry: both positions are the first in
    row-major order. -/
theorem extract_cast_apply (s : FVec Ideal S1 .f32) (h : S1.ShapeCasts S1x1x1)
    (hpos : ∀ a, (![0, 0, 0] : Fin 3 → Nat) a < S1x1x1.size a) :
    extractAt ![0, 0, 0] (shapeCast S1x1x1 s h) hpos = s (ix1 (0 : Fin 1)) :=
  shapeCast_apply s h _ (ix1 (0 : Fin 1)) (by
    rw [Shape.rowMajor_val_one, Shape.rowMajor_val_three]
    rfl)

/-! ## The payload at an entry -/

/-- The stored block at any entry is `kpart` of the loaded blocks read by rows: the two 2048 × 256 blocks and the
    1 × 1 × 2048 weight block (row r's weight at (0, 0, r)). -/
theorem pay1_eq (x0 x1 : Vec Ideal S2048x256 .f32) (x2 : Vec Ideal S1x1x2048 .f32) (e : S8x128.Idx) :
    (k0_pay1 (F := Ideal) x0 x1 x2 e : EReal)
      = kpart (fun r q => (x0 (ix2 r q) : EReal)) (fun r q => (x1 (ix2 r q) : EReal)) (fun r => (x2 (ix3 0 0 r) : EReal)) := by
  obtain ⟨p, q, rfl⟩ : ∃ (p : Fin 8) (q : Fin 128), e = ix2 p q := ⟨e 0, e 1, eq_ix2 e⟩
  unfold k0_pay1
  -- every entry of the stored block is the one entry of a 1 × 1 array, re-laid onto its own shape
  refine (broadcastTo_apply _ _ (ix2 p q) (ix2 (0 : Fin 1) (0 : Fin 1)) fun a => ?_).trans ?_
  · match a with
    | ⟨0, _⟩ => rfl
    | ⟨1, _⟩ => rfl
  rw [shapeCast_self]
  -- that entry is the weighted sum plus the lane sum
  refine (addf_apply _ _ _).trans ?_
  unfold kpart
  refine congrArg₂ (· + ·) ?_ ?_
  · -- ∑_r w r · (d r − h r): the row of weights times the column d − h
    refine (wsum_apply _ _ 0 0).trans (Finset.sum_congr rfl fun r _ => ?_)
    exact congrArg₂ (· * ·) (wrow_apply x2 _ _ 0 r)
      (congrArg₂ (· - ·) (dcol_apply x0 x1 r 0) (hcol_apply x0 x1 r 0))
  · -- ∑_r h r: the column h added up over all its entries
    refine (extract_cast_apply _ _ _).trans ?_
    refine (colsum_apply _ _ _ _ _ _).trans (Finset.sum_congr rfl fun r _ => ?_)
    exact hcol_apply x0 x1 r 0

end Cert.Loss.Kern

end
-- ==== Proof.KernelValue.lean ====
/-
  The 2048-row program's result as a function of its arguments. After the region the 256 × 128 result array holds, in
  rows 8 i … 8 i + 7, block i's reduced loss; the lines after the region take entry (8 i, 0) of each block, add the 32
  numbers to the zero word and scale by 2⁻¹⁷.
-/
import proofs.«155596_g2000500922530033_pallasbulk_741_2_alg».proof.Proof.Gen.KernelIdeal.Frame
import proofs.«155596_g2000500922530033_pallasbulk_741_2_alg».proof.Proof.Spec
import proofs.«155596_g2000500922530033_pallasbulk_741_2_alg».proof.Proof.KernelPayload
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.Loss.Kern

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

namespace Value

/-! ## The buffer after the body is the stored payload -/

theorem hz2 : (![0, 0] : Fin 2 → Nat) = fun _ => 0 := funext fun a => by fin_cases a <;> rfl
theorem hz3 : (![0, 0, 0] : Fin 3 → Nat) = fun _ => 0 := funext fun a => by fin_cases a <;> rfl

/-- The body stores once, over the whole 8 × 128 buffer, and loads each input block whole: what it leaves in the
    buffer is the stored payload of the three blocks. -/
theorem stored_eq (x0 x1 : Vec Ideal S2048x256 .f32) (x2 : Vec Ideal S1x1x2048 .f32) :
    out0_3 (F := Ideal) x0 x1 x2 = k0_pay1 (F := Ideal) x0 x1 x2 := by
  unfold out0_3
  rw [View.canon_unit_zero hz2]
  simp only [View.ld_unit_zero (S := S2048x256) hz2, View.ld_unit_zero (S := S1x1x2048) hz3]

/-! ## The blocks are the arrays' rows -/

/-- The index maps over the 32 points: at point t every window is on block t along its first axis and on block 0
    along the others. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The weight array the region finds: the reshape 65536 → 32 × 1 × 2048 of the third argument, written by the one
    line before the region. -/
theorem v0_eq (c : Dev nD) :
    (V m c main_v0 : S32x1x2048.Idx → EReal)
      = shapeCast S32x1x2048 (m ((c : Thread nD τ).loc main_arg2) : S65536.Idx → EReal) shapeCasts_S65536_S32x1x2048 := by
  show StableHlo.after hostOps0 (fun b => m (c, b)) (Proc.devRef .tc main_v0) = _
  after_results
  rfl

/-- Entry (r, q) of the first input's block at point t is the first argument at row 2048 t + r, column q: a block's
    coordinate is the block's number times the block's extent plus the coordinate inside the block. -/
theorem blk0_apply (c : Dev nD) (t : Fin cfg0.N) (r : Fin 2048) (q : Fin 256) (R : Fin 65536)
    (hR : R.val = 2048 * t.val + r.val) :
    (iblk m c 0 t : Vec Ideal S2048x256 .f32) (ix2 r q)
      = (m ((c : Thread nD τ).loc main_arg0) : S65536x256.Idx → EReal) (ix2 R q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * r.val = R.val; omega
  | ⟨1, _⟩ => show win0_0.index t (1 : Fin 2) * 256 + 1 * q.val = q.val; omega

/-- The same for the second input. -/
theorem blk1_apply (c : Dev nD) (t : Fin cfg0.N) (r : Fin 2048) (q : Fin 256) (R : Fin 65536)
    (hR : R.val = 2048 * t.val + r.val) :
    (iblk m c 1 t : Vec Ideal S2048x256 .f32) (ix2 r q)
      = (m ((c : Thread nD τ).loc main_arg1) : S65536x256.Idx → EReal) (ix2 R q) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 2048 + 1 * r.val = R.val; omega
  | ⟨1, _⟩ => show win0_1.index t (1 : Fin 2) * 256 + 1 * q.val = q.val; omega

/-- Entry (0, 0, r) of the weight block at point t is the third argument at 2048 t + r: the block is slab t of the
    32 × 1 × 2048 reshape, whose entry (t, 0, r) sits at row-major position 2048 t + r of the 65536-vector. -/
theorem blk2_apply (c : Dev nD) (t : Fin cfg0.N) (r : Fin 2048) (R : Fin 65536)
    (hR : R.val = 2048 * t.val + r.val) :
    (iblk m c 2 t : Vec Ideal S1x1x2048 .f32) (ix3 0 0 r)
      = (m ((c : Thread nD τ).loc main_arg2) : S65536.Idx → EReal) (ix1 R) := by
  obtain ⟨-, -, -, -, e0, e1, e2, -⟩ := idx_facts t
  unfold iblk
  rw [View.read_apply]
  show V m c main_v0 _ = _
  rw [v0_eq]
  refine shapeCast_apply _ _ _ _ ?_
  show (S65536.rowMajor (ix1 R)).val = (S32x1x2048.rowMajor (((cfg0.win 2).blk t).view.emb (ix3 0 0 r))).val
  rw [Shape.rowMajor_val_one, Shape.rowMajor_val_three]
  show R.val = ((win0_2.index t (0 : Fin 3) * 1 + 1 * 0) * 1 + (win0_2.index t (1 : Fin 3) * 1 + 1 * 0)) * 2048 + (win0_2.index t (2 : Fin 3) * 2048 + 1 * r.val)
  omega

/-! ## What a point leaves, and the result array -/

/-- Equal blocks reduce to equal numbers. -/
theorem kpart_congr {T : Nat} {A A' B B' : Fin T → Fin 256 → EReal} {W W' : Fin T → EReal}
    (hA : A = A') (hB : B = B') (hW : W = W') : kpart A B W = kpart A' B' W' := by subst hA hB hW; rfl

/-- A point of the grid as a block number. -/
def blkOf (t : Fin cfg0.N) : Fin 32 := ⟨t.val, lt_of_lt_of_eq t.isLt N_0⟩

/-- Block i's reduced loss, of the argument arrays read by rows. -/
def part (c : Dev nD) (i : Fin 32) : EReal :=
  kpart (kA (rows (m ((c : Thread nD τ).loc main_arg0))) i) (kA (rows (m ((c : Thread nD τ).loc main_arg1))) i)
    (kW (rows1 (m ((c : Thread nD τ).loc main_arg2))) i)

/-- After the body at point t every entry of the result buffer is block t's reduced loss: the payload reduces the
    three loaded blocks, and those are rows 2048 t … 2048 t + 2047 of the arguments. -/
theorem after_apply (c : Dev nD) (t : Fin cfg0.N) (e : S8x128.Idx) :
    ((dats m 0 c).after 3 t : Vec Ideal S8x128 .f32) e = part m c (blkOf t) := by
  rw [after0_3]
  refine (congrFun (stored_eq (iblk m c 0 t) (iblk m c 1 t) (iblk m c 2 t)) e).trans ?_
  refine (pay1_eq (iblk m c 0 t) (iblk m c 1 t) (iblk m c 2 t) e).trans ?_
  unfold part
  refine kpart_congr ?_ ?_ ?_
  · exact funext fun r => funext fun q => blk0_apply m c t r q (krow (blkOf t) r) rfl
  · exact funext fun r => funext fun q => blk1_apply m c t r q (krow (blkOf t) r) rfl
  · exact funext fun r => blk2_apply m c t r (krow (blkOf t) r) rfl

/-- The whole result array: entry (R, b) holds the reduced loss of block R / 8. -/
def G (c : Dev nD) : S256x128.Idx → EReal :=
  fun i => part m c ⟨(i 0).val / 8, by have := idx2_lt0 i; omega⟩

/-- What point t writes back is its block of that array: the block's rows are 8 t … 8 t + 7, all of quotient t. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  funext j
  rw [View.read_apply]
  refine (after_apply m c t j).trans ?_
  unfold G
  refine congrArg (part m c) (Fin.ext ?_)
  obtain ⟨-, -, -, -, -, -, -, e0, e1⟩ := idx_facts t
  have hj : (j 0).val < 8 := idx2_lt0 (n0 := 8) (n1 := 128) j
  show t.val = (win0_3.index t (0 : Fin 2) * 8 + 1 * (j 0).val) / 8
  omega

/-- An index of the result array is in point t's block iff each coordinate is in the block's range on its axis. -/
theorem mem_blk (t : Fin cfg0.N) (i : S256x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v1).slice (win0_3.rect t)).set ↔ _
  rw [View.set_slice_whole, Rect.mem_set_unit]
  exact Iff.rfl

/-- The 32 blocks of 8 rows cover the 256 rows: row R is in the block of point R / 8, which is written back. -/
theorem cover (i : S256x128.Idx) :
    ∃ t : Fin cfg0.N, (cfg0.win 3).flush t = true ∧ i ∈ ((cfg0.win 3).blk t).view.set := by
  have hi0 : (i 0).val < 256 := idx2_lt0 i
  have hi1 : (i 1).val < 128 := idx2_lt1 i
  let t : Fin cfg0.N := ⟨(i 0).val / 8, lt_of_lt_of_eq (by omega : (i 0).val / 8 < 32) N_0.symm⟩
  obtain ⟨-, -, -, -, -, -, -, e0, e1⟩ := idx_facts t
  have ht : t.val = (i 0).val / 8 := rfl
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- So the result array ends holding it. -/
theorem final_arr (c : Dev nD) : (dats m 0 c).arrAt 3 cfg0.N = G m c :=
  (dats m 0 c).arrAt_eq_of_cover 3 (G m c) (fun t _ => flushed_eq m c t) cover

/-! ## The lines after the region -/

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-- The lines after the region, read over any 256 × 128 array whose entry (8 i, 0) is p i: reshape to 32 × 8 × 128, take
    entry (i, 0, 0) of each of the 32 slabs, add the 32 numbers to the zero word, scale. -/
theorem tail_read (A : S256x128.Idx → EReal) (p : Fin 32 → EReal)
    (hA : ∀ i : Fin 32, A (ix2 (⟨8 * i.val, by omega⟩ : Fin 256) (⟨0, by omega⟩ : Fin 128)) = p i) (x : S_.Idx) :
    (mulf (F := Ideal)
      (Host.reduceAdd (F := Ideal)
        (shapeCast S32 (extractStridedSlice S32x1x1 ![0, 0, 0]
          (shapeCast S32x8x128 A shapeCasts_S256x128_S32x8x128) slices_S32x8x128_S32x1x1_0_0_0) shapeCasts_S32x1x1_S32)
        (constant (F := Ideal) S_ .f32 0x00000000#32) reducesTo_S32_S_d0 h_S_)
      (constant (F := Ideal) S_ .f32 0x37000000#32) : S_.Idx → EReal) x
    = (zero + ∑ i : Fin 32, p i) * scale := by
  rw [mulf_apply, constant_apply]
  show Ideal.hostReduceAdd reducesTo_S32_S_d0 _ (Ideal.ofBits .f32 0x00000000#32) x * scale = _
  -- the sum into the scalar shape is the initial value plus the sum over every index of the 32-vector
  rw [Ideal.hostReduceAdd_total reducesTo_S32_S_d0 (fun b => b.elim0)]
  refine congrArg (· * scale) (congrArg (zero + ·) ?_)
  refine (sum_idx1 _).trans (Finset.sum_congr rfl fun k _ => ?_)
  -- the 32-vector at k is the 32 × 1 × 1 array at (k, 0, 0)
  refine (shapeCast_apply _ _ (ix1 k) (ix3 k (0 : Fin 1) (0 : Fin 1)) ?_).trans ?_
  · rw [Shape.rowMajor_val_three, Shape.rowMajor_val_one]
    show (k.val * 1 + 0) * 1 + 0 = k.val
    omega
  -- which is the 32 × 8 × 128 array at (k, 0, 0)
  refine (extractStridedSlice_apply _ _ _ _ (ix3 k (0 : Fin 8) (0 : Fin 128)) fun a => ?_).trans ?_
  · match a with
    | ⟨0, _⟩ => show k.val = 0 + k.val; omega
    | ⟨1, _⟩ => rfl
    | ⟨2, _⟩ => rfl
  -- which is the 256 × 128 array at (8 k, 0): both sit at row-major position 1024 k
  refine (shapeCast_apply _ _ _ (ix2 (⟨8 * k.val, by omega⟩ : Fin 256) (⟨0, by omega⟩ : Fin 128)) ?_).trans (hA k)
  rw [Shape.rowMajor_val_two, Shape.rowMajor_val_three]
  show 8 * k.val * 128 + 0 = (k.val * 8 + 0) * 128 + 0
  omega

end Value

open Value

/-- What the lines after the region leave in the result, computed from the region's proof data: the 32 blocks' reduced
    losses of the argument arrays, added to the zero word and scaled. -/
theorem tail_eq (c : Dev nD) :
    (Pipeline.afterTail₀ cfgs (dats m) 0 (V0 m) [hostOps1] c main_v6 : S_.Idx → EReal)
      = fun _ => final (ktotal (rows (m ((c : Thread nD τ).loc main_arg0))) (rows (m ((c : Thread nD τ).loc main_arg1)))
          (rows1 (m ((c : Thread nD τ).loc main_arg2)))) := by
  unfold Pipeline.afterTail₀
  show StableHlo.after hostOps1 _ (Proc.devRef .tc main_v6) = _
  after_results
  funext x
  -- the array the lines read is the region's result array, whose entry (8 i, 0) is block i's reduced loss
  refine (tail_read _ (part m c) (fun i => ?_) x).trans rfl
  refine (congrFun ((Pipeline.withArrays_arr spec0 launch0.win.arr_inj c _ _ 3).trans (final_arr m c)) _).trans ?_
  unfold G
  refine congrArg (part m c) (Fin.ext ?_)
  show 8 * i.val / 8 = i.val
  omega

end Cert.Loss.Kern

end
-- ==== Proof.KernelRun.lean ====
/-
  The 32-block program's run with its result named: the region's run leaves in the result buffer what the lines
  after the region compute from the region's result array, which is the 32 blocks' reduced losses added up and scaled;
  the three arguments end as they were.
-/
import proofs.«155596_g2000500922530033_pallasbulk_741_2_alg».proof.Proof.Gen.KernelIdeal.Frame
import proofs.«155596_g2000500922530033_pallasbulk_741_2_alg».proof.Proof.KernelValue

noncomputable section

namespace Cert.Loss.Kern

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- Every weakly fair execution terminates with the result at `final (ktotal …)` of the argument arrays and the arguments
    unchanged. -/
theorem run_value : θ_run defs (onTc (τ := τ) (main (F := Ideal))) ⟨m, fun _ => 0, ρ⟩ (fun r => ∀ c : Dev nD,
      r.2.mem ((c.tc : Thread nD τ).loc main_v6)
          = (fun _ => final (ktotal (rows (m ((c : Thread nD τ).loc main_arg0))) (rows (m ((c : Thread nD τ).loc main_arg1)))
              (rows1 (m ((c : Thread nD τ).loc main_arg2)))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Loss.Kern

end
-- ==== Proof.RefData.lean ====
/-
  What the nine-block program's one region is proved over: for each of its four windows, what the window's staging
  buffer holds after the body at grid point t.

  * The three inputs (the two 65536 × 256 arrays and the 65536 × 1 weight column, each in blocks of 7864 rows) are
    not written by the body: their buffers hold the block just fetched. At the last point the block reaches 5240 rows
    past the array's end; the rows inside the array are the array's, and of the rows past it nothing is stated (they
    are filled out here with the zero word, which nothing reads).
  * The output's 8 × 128 buffer holds, in every entry, the block's reduced loss: the sum over the block's rows that
    lie inside the array of  Y · d + (1 − Y) · h  (`Cert.Loss.rpartMask` at `valid j` rows), as a function of the
    arrays the region finds.
-/
import proofs.«155596_g2000500922530033_pallasbulk_741_2_alg».proof.Proof.Gen.ReferenceIdeal.Frame
import proofs.«155596_g2000500922530033_pallasbulk_741_2_alg».proof.Proof.Spec

noncomputable section

namespace Cert.Loss.Ref

open Cert.ReferenceIdeal Cert.ReferenceIdeal.Gen
open Idealize.ShloMosaic Idealize.ShloMosaic.TcCoe Idealize.ShloMosaic.ValueIdx
open Idealize.SL Idealize.SL.RA Idealize.SL.BI Idealize.SL.Sem
open Idealize.ShloMosaic.Rounds
open Idealize.ShloMosaic.Pipeline (Dat Cfg Window)

variable (m : (ℓ : Loc nD τ sig) → Buf (Elt Ideal) ℓ)

/-- The two arrays by rows and the weight column, as the region finds them. -/
def X0 (c : Dev nD) : Fin 65536 → Fin 256 → EReal := fun R q => (V m c main_arg0 : S65536x256.Idx → EReal) (ix2 R q)
def X1 (c : Dev nD) : Fin 65536 → Fin 256 → EReal := fun R q => (V m c main_arg1 : S65536x256.Idx → EReal) (ix2 R q)
def Wt (c : Dev nD) : Fin 65536 → EReal := fun R => (V m c main_v0 : S65536x1.Idx → EReal) (ix2 R 0)

/-- The grid point as a block number below 9. -/
def blk (t : Fin cfg0.N) : Fin 9 := Fin.cast N_0 t

/-- The reduced loss of the block at point `t`: its rows inside the array, each at Y · d + (1 − Y) · h. -/
def blockVal (c : Dev nD) (t : Fin cfg0.N) : EReal :=
  rpartMask (valid (blk t)) (rA (X0 m c) (blk t)) (rA (X1 m c) (blk t)) (rW (Wt m c) (blk t))

/-- The proof data of the region on core `c`: the arrays as the region finds them; after the body each input's buffer at
    its block (filled out with the zero word past the array's end) and the output's at the block's reduced loss in every
    entry; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => zero) (iblk m c 0 t)
    | ⟨1, _⟩ => win0_1.fill (grid0.coords t) (fun _ => zero) (iblk m c 1 t)
    | ⟨2, _⟩ => win0_2.fill (grid0.coords t) (fun _ => zero) (iblk m c 2 t)
    | ⟨3, _⟩ => fun _ => blockVal m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => zero) (iblk m c 0 t) := by dsimp only [dats]
theorem after_1 (c : Dev nD) (t : Fin cfg0.N) :
    (dats m 0 c).after 1 t = win0_1.fill (grid0.coords t) (fun _ => zero) (iblk m c 1 t) := by dsimp only [dats]
theorem after_2 (c : Dev nD) (t : Fin cfg0.N) :
    (dats m 0 c).after 2 t = win0_2.fill (grid0.coords t) (fun _ => zero) (iblk m c 2 t) := by dsimp only [dats]
theorem after_3 (c : Dev nD) (t : Fin cfg0.N) :
    (dats m 0 c).after 3 t = fun _ => blockVal m c t := by dsimp only [dats]

end Cert.Loss.Ref

end
-- ==== Proof.RefPayload.lean ====
/-
  What the 7864-row program's body stores, read at an entry. At the last grid point the stored block is, in every
  entry, the sum of the rows' losses with a row counted only if its number 7864 · i + r lies below 65536; at the
  other points it is the sum of all the block's rows' losses.
-/
import proofs.«155596_g2000500922530033_pallasbulk_741_2_alg».proof.Proof.Gen.ReferenceIdeal.Skeleton
import proofs.«155596_g2000500922530033_pallasbulk_741_2_alg».proof.Proof.Spec
import proofs.«155596_g2000500922530033_pallasbulk_741_2_alg».proof.Proof.LibDotPlain
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

open scoped BigOperators

namespace Cert.Loss.Ref

open Cert.ReferenceIdeal Cert.ReferenceIdeal.Gen
open Idealize.ShloMosaic Idealize.ShloMosaic.ValueIdx

/-! Auxiliary readings, kept in a namespace of their own. -/
namespace Payload

/-- The generated dimension record names the plain product of a 7864 × 256 array with a 256 × 1 array: the same six
    axis lists, so the two records are the same. -/
theorem dot_eq_plain : dot_S7864x256_S256x1_S7864x1_1_0_0_1_n_n = DotDims.plain 7864 256 1 := rfl

/-- The product of a 7864 × 256 array with the 256 × 1 column of ones, accumulated into the zero column, read at row
    r: the sum over the 256 columns of the array's entry times the word of 1.0. -/
theorem dsq_at (v5 : FVec Ideal S7864x256 .f32) (r : Fin 7864) :
    matmul dot_S7864x256_S256x1_S7864x1_1_0_0_1_n_n none v5
        (broadcast S256x1 (Scalar.ofBits (F := Ideal) .f32 0x3F800000#32))
        (constant (F := Ideal) S7864x1 .f32 0x00000000#32) (ix2 r 0)
      = ∑ q : Fin 256, v5 (ix2 r q) * one := by
  rw [dot_eq_plain]
  exact Cert.LibDotPlain.matmul_zero_plain 7864 256 1 none v5 _ r 0

/-- The column of row losses read at row r: the weight times the squared distance plus the complementary weight
    times the squared hinge. The re-lay of the weight column to its own shape is the identity; every other operation
    is read entry by entry, and the product with the column of ones is the sum over the columns. -/
theorem col_eq (x0 x1 : FVec Ideal S7864x256 .f32) (x2 : FVec Ideal S7864x1 .f32) (r : Fin 7864) :
    (k0_pay1 (F := Ideal) x0 x1 x2 (ix2 r 0) : EReal)
      = bloss (fun r q => (x0 (ix2 r q) : EReal)) (fun r q => (x1 (ix2 r q) : EReal)) (fun r => (x2 (ix2 r 0) : EReal)) r := by
  have hD := dsq_at (mulf (subf x0 x1) (subf x0 x1)) r
  unfold k0_pay1
  rw [shapeCast_self]
  generalize matmul dot_S7864x256_S256x1_S7864x1_1_0_0_1_n_n none (mulf (subf x0 x1) (subf x0 x1))
    (broadcast S256x1 (FloatOps.ofBits FTy.f32 1065353216#32)) (constant S7864x1 FTy.f32 0#32) = M at hD ⊢
  show x2 (ix2 r 0) * M (ix2 r 0)
      + (one - x2 (ix2 r 0)) * (max (one - Ideal.sqrt (M (ix2 r 0))) zero * max (one - Ideal.sqrt (M (ix2 r 0))) zero) = _
  rw [hD]
  rfl

/-- The entries of a 1 × n × 1 array are its n rows: row r's entry is (0, r, 0). -/
def rowEquiv (n : Nat) : Fin n ≃ (⟨3, ![1, n, 1]⟩ : Shape).Idx where
  toFun r := ix3 0 r 0
  invFun j := j 1
  left_inv _ := rfl
  right_inv j := by
    funext a
    match a with
    | ⟨0, _⟩ => exact Fin.ext (by have h : (j 0).val < 1 := (j 0).isLt; show 0 = (j 0).val; omega)
    | ⟨1, _⟩ => rfl
    | ⟨2, _⟩ => exact Fin.ext (by have h : (j 2).val < 1 := (j 2).isLt; show 0 = (j 2).val; omega)

/-- So a sum over the entries of a 1 × n × 1 array is the sum over its rows. -/
theorem sum_rows {β : Type*} [AddCommMonoid β] (n : Nat) (f : (⟨3, ![1, n, 1]⟩ : Shape).Idx → β) :
    ∑ i, f i = ∑ r : Fin n, f (ix3 0 r 0) :=
  (Equiv.sum_comp (rowEquiv n) f).symm

/-- The sum of a 1 × 7864 × 1 array over its last two axes into a one-entry array, read at that entry: the sum over
    the 7864 rows. (The accumulator's word is stated as the body prints it, the zero word.) -/
theorem red_at (src : FVec Ideal S1x7864x1 .f32) (hφ : FKind.Formats .f32)
    (hacc : (0x00000000#32 : BitVec 32) = 0x00000000#32) (j : S1.Idx) :
    multiReduction (F := Ideal) .add [1, 2] S1 src 0x00000000#32 reduces_S1x7864x1_S1 hφ hacc j
      = ∑ r : Fin 7864, src (ix3 0 r 0) :=
  (Ideal.multiReduction_add_total src 0x00000000#32 reduces_S1x7864x1_S1 (fun b => by match b with | ⟨0, _⟩ => rfl)
    hφ hacc j).trans (sum_rows 7864 src)

/-- The total of a 7864 × 1 column as the body takes it — the column re-laid as 1 × 7864 × 1, summed over its last
    two axes into a one-entry array, that entry taken out and spread over an 8 × 128 block — read at any entry of the
    block: the sum over the 7864 rows of the column. -/
theorem total_at (col : FVec Ideal S7864x1 .f32) (e : S8x128.Idx) :
    broadcastTo S8x128
      (shapeCast S1x1
        (broadcast S1x1
          (extractAt ![0, 0, 0]
            (shapeCast S1x1x1
              (multiReduction (F := Ideal) .add [1, 2] S1 (shapeCast S1x7864x1 col shapeCasts_S7864x1_S1x7864x1)
                0x00000000#32 reduces_S1x7864x1_S1 (.inl rfl) rfl)
              shapeCasts_S1_S1x1x1)
            inpos_S1x1x1_p0_0_0))
        shapeCasts_S1x1_S1x1)
      broadcasts_S1x1_S8x128 e
    = ∑ r : Fin 7864, col (ix2 r 0) := by
  rw [shapeCast_self,
    broadcastTo_apply _ broadcasts_S1x1_S8x128 e (ix2 0 0) (fun a => by match a with | ⟨0, _⟩ => rfl | ⟨1, _⟩ => rfl)]
  show shapeCast S1x1x1 _ shapeCasts_S1_S1x1x1 (fun a => ⟨(![0, 0, 0] : Fin 3 → Nat) a, inpos_S1x1x1_p0_0_0 a⟩) = _
  rw [shapeCast_apply _ shapeCasts_S1_S1x1x1 _ (ix1 0) (by rw [Shape.rowMajor_val_one, Shape.rowMajor_val_three]; rfl)]
  refine (red_at _ _ _ _).trans ?_
  exact Finset.sum_congr rfl fun r _ => shapeCast_ab_1ab_apply col _ 0 r 0

/-- The selecting bit at row r, at grid coordinate i: the row's number r + 7864 · i, formed in 32-bit words, is
    compared, signed, with 65536. Since i is below 9 and r below 7864 the number is below 70776, so neither the product
    nor the sum wraps and both words are non-negative as signed numbers: the bit is set exactly when
    r + 7864 · i < 65536, that is when r lies among the first 65536 − 7864 · i rows. -/
theorem mask_iff (i : grid0.Coords) (r : Fin 7864) :
    cmpi .slt
        (addi (iota .tc S7864x1 32 [0] iota_S7864x1_d0_w32)
          (broadcast S7864x1 (Scalar.muli (BitVec.ofNat 32 (i 0).val) 7864#32)))
        (broadcast S7864x1 65536#32) (ix2 r 0) = 1#1
      ↔ r.val < 65536 - 7864 * (i 0).val := by
  have hi : (i 0).val < 9 := (i 0).isLt
  have hr : r.val < 7864 := r.isLt
  show IntOp.cmpi .slt (iota .tc S7864x1 32 [0] iota_S7864x1_d0_w32 (ix2 r 0)
      + BitVec.ofNat 32 (i 0).val * BitVec.ofNat 32 7864) (BitVec.ofNat 32 65536) = 1#1 ↔ _
  rw [iota_single_apply]
  show IntOp.cmpi .slt (BitVec.ofNat 32 r.val + BitVec.ofNat 32 (i 0).val * BitVec.ofNat 32 7864)
      (BitVec.ofNat 32 65536) = 1#1 ↔ _
  have hs : r.val + (i 0).val * 7864 < 2 ^ 32 := by omega
  rw [← BitVec.ofNat_mul, ← BitVec.ofNat_add,
    StableHlo.Predicate.slt_iff_toNat (by rw [BitVec.toNat_ofNat, Nat.mod_eq_of_lt hs]; omega) (by decide),
    BitVec.toNat_ofNat, Nat.mod_eq_of_lt hs]
  show r.val + (i 0).val * 7864 < 65536 ↔ _
  omega

/-- The selected column at row r: the column's entry where the row is counted, the zero word elsewhere. -/
theorem sel_at (i : grid0.Coords) (col : FVec Ideal S7864x1 .f32) (r : Fin 7864) :
    select
        (cmpi .slt
          (addi (iota .tc S7864x1 32 [0] iota_S7864x1_d0_w32)
            (broadcast S7864x1 (Scalar.muli (BitVec.ofNat 32 (i 0).val) 7864#32)))
          (broadcast S7864x1 65536#32))
        col (broadcast S7864x1 (Scalar.ofBits (F := Ideal) .f32 0x00000000#32)) (ix2 r 0)
      = if r.val < 65536 - 7864 * (i 0).val then col (ix2 r 0) else zero := by
  rw [select_apply]
  by_cases h : r.val < 65536 - 7864 * (i 0).val
  · rw [if_pos h, (mask_iff i r).mpr h, select_one]
  · rw [if_neg h, eq_zero_of_ne_one (fun hb => h ((mask_iff i r).mp hb)), select_zero]
    rfl

end Payload

open Payload

/-- The unmasked store at any entry: every row of the loaded blocks counted. -/
theorem pay3_eq (x0 x1 : Vec Ideal S7864x256 .f32) (x2 : Vec Ideal S7864x1 .f32) (e : S8x128.Idx) :
    (k0_pay3 (F := Ideal) x0 x1 x2 e : EReal)
      = rpartAll (fun r q => (x0 (ix2 r q) : EReal)) (fun r q => (x1 (ix2 r q) : EReal)) (fun r => (x2 (ix2 r 0) : EReal)) := by
  unfold k0_pay3
  rw [total_at]
  exact Finset.sum_congr rfl fun r _ => col_eq x0 x1 x2 r

/-- The masked store at any entry, at grid coordinate `i` (below 9): row r counted iff 7864 · i + r < 65536, that is
    iff r lies among the first 65536 − 7864 · i rows. -/
theorem pay2_eq (i : grid0.Coords) (x0 x1 : Vec Ideal S7864x256 .f32) (x2 : Vec Ideal S7864x1 .f32) (e : S8x128.Idx) :
    (k0_pay2 (F := Ideal) i x0 x1 x2 e : EReal)
      = rpartMask (65536 - 7864 * (i 0).val) (fun r q => (x0 (ix2 r q) : EReal)) (fun r q => (x1 (ix2 r q) : EReal))
          (fun r => (x2 (ix2 r 0) : EReal)) := by
  unfold k0_pay2
  rw [total_at]
  exact Finset.sum_congr rfl fun r _ => by rw [sel_at, col_eq]

end Cert.Loss.Ref

end
-- ==== Proof.RefBlocks.lean ====
/-
  A clipped block read at a row inside the array. The three input windows of the 7864-row program are fetched in blocks
  of 7864 rows; block j starts at row 7864 · j. Whatever the staging buffer held before the fetch (the filler d, which
  survives only on the rows past the array's end), its entry at row r of the block, when row 7864 · j + r lies inside the
  array, is the array's entry at that row.
-/
import proofs.«155596_g2000500922530033_pallasbulk_741_2_alg».proof.Proof.RefData
import Idealize.ShloMosaic.Lib.ValueIdx
import Idealize.ShloMosaic.Lib.Pipeline.Value

noncomputable section

open scoped BigOperators

namespace Cert.Loss.Ref

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The index maps and the cuts, decided over the nine grid points

  At point t each input window's block index is (t, 0). On the row axis the block of 7864 rows starting at row 7864 · t
  is cut at the array's end: min 7864 (65536 − 7864 · t) of its rows are moved (all of them for t < 8, and 2624 for
  t = 8, since 8 · 7864 + 2624 = 65536). The column axis is moved whole. -/

theorem coords_val : ∀ t : Fin grid0.N, (grid0.coords t 0).val = t.val := by decide +kernel

theorem index_0 : ∀ t : Fin grid0.N, win0_0.index t 0 = t.val ∧ win0_0.index t 1 = 0 := by decide +kernel
theorem index_1 : ∀ t : Fin grid0.N, win0_1.index t 0 = t.val ∧ win0_1.index t 1 = 0 := by decide +kernel
theorem index_2 : ∀ t : Fin grid0.N, win0_2.index t 0 = t.val ∧ win0_2.index t 1 = 0 := by decide +kernel

theorem xsize_0 : ∀ t : Fin grid0.N, win0_0.xsize (grid0.coords t) 0 = min 7864 (65536 - 7864 * t.val)
    ∧ win0_0.xsize (grid0.coords t) 1 = 256 := by decide +kernel
theorem xsize_1 : ∀ t : Fin grid0.N, win0_1.xsize (grid0.coords t) 0 = min 7864 (65536 - 7864 * t.val)
    ∧ win0_1.xsize (grid0.coords t) 1 = 256 := by decide +kernel
theorem xsize_2 : ∀ t : Fin grid0.N, win0_2.xsize (grid0.coords t) 0 = min 7864 (65536 - 7864 * t.val)
    ∧ win0_2.xsize (grid0.coords t) 1 = 1 := by decide +kernel

/-- The grid's one coordinate at point `t` is the block number. -/
theorem coord_eq (t : Fin cfg0.N) : (grid0.coords t 0).val = (blk t).val := coords_val t

/-- Window 0's filled-out block at row r, column q, for a row inside the array. -/
theorem fill_row0 (c : Dev nD) (t : Fin cfg0.N) (d : S7864x256.Idx → EReal) (r : Fin 7864) (q : Fin 256)
    (h : 7864 * (blk t).val + r.val < 65536) :
    (win0_0.fill (grid0.coords t) d (iblk m c 0 t) (ix2 r q) : EReal) = X0 m c ⟨7864 * (blk t).val + r.val, h⟩ q := by
  have hb : (blk t).val = t.val := rfl
  obtain ⟨hi0, hi1⟩ := index_0 t
  obtain ⟨hx0, hx1⟩ := xsize_0 t
  -- the entry is moved: row r lies below the cut (row 7864 · t + r is inside the array), and every column is moved
  have hmv : win0_0.moved (grid0.coords t) (ix2 r q) = true := by
    rw [Pipeline.Window.moved_iff]
    intro a
    match a with
    | ⟨0, _⟩ =>
      show r.val < win0_0.xsize (grid0.coords t) 0
      rw [hx0]; omega
    | ⟨1, _⟩ =>
      show q.val < win0_0.xsize (grid0.coords t) 1
      rw [hx1]; exact q.isLt
  -- so the filled-out block holds the fetched block's entry there, whatever d is
  unfold Pipeline.Window.fill
  rw [dif_pos hmv]
  -- and the fetched block's entry (r, q) is the array's at (7864 · t + r, q): block index × block size + the coordinate
  unfold iblk X0
  show (V m c main_arg0 : S65536x256.Idx → EReal) (((cfg0.win 0).blk t).view.emb _)
    = (V m c main_arg0 : S65536x256.Idx → EReal) (ix2 ⟨7864 * (blk t).val + r.val, h⟩ q)
  refine congrArg (V m c main_arg0 : S65536x256.Idx → EReal) (funext fun a => Fin.ext ?_)
  match a with
  | ⟨0, _⟩ =>
    show win0_0.index t 0 * 7864 + 1 * r.val = 7864 * (blk t).val + r.val
    rw [hi0, hb]; omega
  | ⟨1, _⟩ =>
    show win0_0.index t 1 * 256 + 1 * q.val = q.val
    rw [hi1]; omega

/-- Window 1's likewise. -/
theorem fill_row1 (c : Dev nD) (t : Fin cfg0.N) (d : S7864x256.Idx → EReal) (r : Fin 7864) (q : Fin 256)
    (h : 7864 * (blk t).val + r.val < 65536) :
    (win0_1.fill (grid0.coords t) d (iblk m c 1 t) (ix2 r q) : EReal) = X1 m c ⟨7864 * (blk t).val + r.val, h⟩ q := by
  have hb : (blk t).val = t.val := rfl
  obtain ⟨hi0, hi1⟩ := index_1 t
  obtain ⟨hx0, hx1⟩ := xsize_1 t
  -- the entry is moved: row r lies below the cut (row 7864 · t + r is inside the array), and every column is moved
  have hmv : win0_1.moved (grid0.coords t) (ix2 r q) = true := by
    rw [Pipeline.Window.moved_iff]
    intro a
    match a with
    | ⟨0, _⟩ =>
      show r.val < win0_1.xsize (grid0.coords t) 0
      rw [hx0]; omega
    | ⟨1, _⟩ =>
      show q.val < win0_1.xsize (grid0.coords t) 1
      rw [hx1]; exact q.isLt
  -- so the filled-out block holds the fetched block's entry there, whatever d is
  unfold Pipeline.Window.fill
  rw [dif_pos hmv]
  -- and the fetched block's entry (r, q) is the array's at (7864 · t + r, q): block index × block size + the coordinate
  unfold iblk X1
  show (V m c main_arg1 : S65536x256.Idx → EReal) (((cfg0.win 1).blk t).view.emb _)
    = (V m c main_arg1 : S65536x256.Idx → EReal) (ix2 ⟨7864 * (blk t).val + r.val, h⟩ q)
  refine congrArg (V m c main_arg1 : S65536x256.Idx → EReal) (funext fun a => Fin.ext ?_)
  match a with
  | ⟨0, _⟩ =>
    show win0_1.index t 0 * 7864 + 1 * r.val = 7864 * (blk t).val + r.val
    rw [hi0, hb]; omega
  | ⟨1, _⟩ =>
    show win0_1.index t 1 * 256 + 1 * q.val = q.val
    rw [hi1]; omega

/-- Window 2's (the weight column, one entry a row). -/
theorem fill_row2 (c : Dev nD) (t : Fin cfg0.N) (d : S7864x1.Idx → EReal) (r : Fin 7864)
    (h : 7864 * (blk t).val + r.val < 65536) :
    (win0_2.fill (grid0.coords t) d (iblk m c 2 t) (ix2 r 0) : EReal) = Wt m c ⟨7864 * (blk t).val + r.val, h⟩ := by
  have hb : (blk t).val = t.val := rfl
  obtain ⟨hi0, hi1⟩ := index_2 t
  obtain ⟨hx0, hx1⟩ := xsize_2 t
  -- the entry is moved: row r lies below the cut, and the one column is moved
  have hmv : win0_2.moved (grid0.coords t) (ix2 r 0) = true := by
    rw [Pipeline.Window.moved_iff]
    intro a
    match a with
    | ⟨0, _⟩ =>
      show r.val < win0_2.xsize (grid0.coords t) 0
      rw [hx0]; omega
    | ⟨1, _⟩ =>
      show (0 : Fin 1).val < win0_2.xsize (grid0.coords t) 1
      rw [hx1]; exact Nat.zero_lt_one
  unfold Pipeline.Window.fill
  rw [dif_pos hmv]
  -- the fetched block's entry (r, 0) is the column's at row 7864 · t + r
  unfold iblk Wt
  show (V m c main_v0 : S65536x1.Idx → EReal) (((cfg0.win 2).blk t).view.emb _)
    = (V m c main_v0 : S65536x1.Idx → EReal) (ix2 ⟨7864 * (blk t).val + r.val, h⟩ 0)
  refine congrArg (V m c main_v0 : S65536x1.Idx → EReal) (funext fun a => Fin.ext ?_)
  match a with
  | ⟨0, _⟩ =>
    show win0_2.index t 0 * 7864 + 1 * r.val = 7864 * (blk t).val + r.val
    rw [hi0, hb]; omega
  | ⟨1, _⟩ =>
    show win0_2.index t 1 * 1 + 1 * (0 : Fin 1).val = (0 : Fin 1).val
    rw [hi1]; rfl

end Cert.Loss.Ref

end
-- ==== Proof.RefFrame.lean ====
/-
  The nine-block program's region runs, and its frame.

  The body loads its three input blocks whole, computes the column of row losses, and stores one 8 × 128 block: at the
  last grid point (the one whose block reaches past the array's end) the masked sum of the column, at every other point
  its plain sum. Exactly one of the two stores happens at each point. Read at the three blocks the region hands it —
  each the array's rows inside the array, anything past them — the stored block is in both cases the block's reduced
  loss over its rows inside the array: at the last point the mask drops exactly the rows past the array's end, and at the
  other points every row is inside it.
-/
import proofs.«155596_g2000500922530033_pallasbulk_741_2_alg».proof.Proof.RefData
import proofs.«155596_g2000500922530033_pallasbulk_741_2_alg».proof.Proof.RefPayload
import proofs.«155596_g2000500922530033_pallasbulk_741_2_alg».proof.Proof.RefBlocks
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.Loss.Ref

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body's accesses: three whole loads and one whole store -/

abbrev rIn : Rect S7864x256 := Rect.unit (s := S7864x256) ![0, 0] S7864x256.size inb_S7864x256_S7864x256_0_0
abbrev rCol : Rect S7864x1 := Rect.unit (s := S7864x1) ![0, 0] S7864x1.size inb_S7864x1_S7864x1_0_0
abbrev rOut : Rect S8x128 := Rect.unit (s := S8x128) ![0, 0] S8x128.size inb_S8x128_S8x128_0_0

/-- The output buffer after the body at the last point: its one store, of the masked sum. -/
def outLast (i : grid0.Coords) (x0 x1 : Vec Ideal S7864x256 .f32) (x2 : Vec Ideal S7864x1 .f32) : Vec Ideal S8x128 .f32 :=
  View.canon [⟨rOut, k0_pay2 i (View.ld x0 rIn) (View.ld x1 rIn) (View.ld x2 rCol)⟩]

/-- The output buffer after the body at any other point: its one store, of the plain sum. -/
def outRest (x0 x1 : Vec Ideal S7864x256 .f32) (x2 : Vec Ideal S7864x1 .f32) : Vec Ideal S8x128 .f32 :=
  View.canon [⟨rOut, k0_pay3 (View.ld x0 rIn) (View.ld x1 rIn) (View.ld x2 rCol)⟩]

/-- The one store covers the buffer. -/
theorem coverOut (p0 : Vec Ideal S8x128 .f32) (y : S8x128.Idx) :
    ∃ pc ∈ ([⟨rOut, p0⟩] : List (View.Piece (Elt Ideal) S8x128 .f32)), y ∈ pc.1.set :=
  View.cover_of_tiled [⟨rOut, p0⟩] S8x128.size (by rfl) y

/-! ## The body's triple, case by case -/

set_option maxHeartbeats 1000000 in
/-- At the last point (the first conditional taken, the second not): the inputs' buffers are left as they were and the
    output's holds the masked sum's block. -/
theorem sound_last (c : Dev nD) (E : Set ℕ) (i : grid0.Coords)
    (arg1 : Memref sig .tc .vmem S7864x256 .f32) (harg1 : arg1.IsWhole) (arg2 : Memref sig .tc .vmem S7864x256 .f32) (harg2 : arg2.IsWhole)
    (arg3 : Memref sig .tc .vmem S7864x1 .f32) (harg3 : arg3.IsWhole) (arg4 : Memref sig .tc .vmem S8x128 .f32) (harg4 : arg4.IsWhole)
    (hc1 : k0_cond1 i = 1#1) (hc2 : ¬k0_cond2 i = 1#1)
    (x0 x1 : Vec Ideal S7864x256 .f32) (x2 : Vec Ideal S7864x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outLast i x0 x1 x2)) -∗ K ⟨⟩))
      ⊢ wp frame (wpE (defs₀ (F := Ideal)) Variants.none c none) E (cc0__contrastive_loss_kernel i arg1 harg1 arg2 harg2 arg3 harg3 arg4 harg4) K := by
  simp only [cc0__contrastive_loss_kernel_eq_skeleton]; unfold cc0__contrastive_loss_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

set_option maxHeartbeats 1000000 in
/-- At any other point (the first conditional not taken, the second taken): likewise with the plain sum's block. -/
theorem sound_rest (c : Dev nD) (E : Set ℕ) (i : grid0.Coords)
    (arg1 : Memref sig .tc .vmem S7864x256 .f32) (harg1 : arg1.IsWhole) (arg2 : Memref sig .tc .vmem S7864x256 .f32) (harg2 : arg2.IsWhole)
    (arg3 : Memref sig .tc .vmem S7864x1 .f32) (harg3 : arg3.IsWhole) (arg4 : Memref sig .tc .vmem S8x128 .f32) (harg4 : arg4.IsWhole)
    (hc1 : ¬k0_cond1 i = 1#1) (hc2 : k0_cond2 i = 1#1)
    (x0 x1 : Vec Ideal S7864x256 .f32) (x2 : Vec Ideal S7864x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (outRest x0 x1 x2)) -∗ K ⟨⟩))
      ⊢ wp frame (wpE (defs₀ (F := Ideal)) Variants.none c none) E (cc0__contrastive_loss_kernel i arg1 harg1 arg2 harg2 arg3 harg3 arg4 harg4) K := by
  simp only [cc0__contrastive_loss_kernel_eq_skeleton]; unfold cc0__contrastive_loss_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

/-! ## The stored block is the block's reduced loss, whatever lies past the array's end -/

theorem zero2 : (![0, 0] : Fin 2 → Nat) = fun _ => 0 := funext fun a => by fin_cases a <;> rfl

/-- A whole store of a payload over whole loads leaves the payload of the buffers' contents. -/
theorem outLast_eq (i : grid0.Coords) (x0 x1 : Vec Ideal S7864x256 .f32) (x2 : Vec Ideal S7864x1 .f32) :
    outLast i x0 x1 x2 = k0_pay2 (F := Ideal) i x0 x1 x2 := by
  unfold outLast
  rw [View.canon_unit_zero zero2]
  simp only [View.ld_unit_zero (S := S7864x256) zero2, View.ld_unit_zero (S := S7864x1) zero2]

theorem outRest_eq (x0 x1 : Vec Ideal S7864x256 .f32) (x2 : Vec Ideal S7864x1 .f32) :
    outRest x0 x1 x2 = k0_pay3 (F := Ideal) x0 x1 x2 := by
  unfold outRest
  rw [View.canon_unit_zero zero2]
  simp only [View.ld_unit_zero (S := S7864x256) zero2, View.ld_unit_zero (S := S7864x1) zero2]

/-- A block's reduced loss over its first `n` rows depends on those rows only. -/
theorem rpartMask_congr {T : Nat} (n : Nat) {A A' B B' : Fin T → Fin 256 → EReal} {W W' : Fin T → EReal}
    (h : ∀ r : Fin T, r.val < n → (∀ q, A r q = A' r q) ∧ (∀ q, B r q = B' r q) ∧ W r = W' r) :
    rpartMask n A B W = rpartMask n A' B' W' := by
  unfold rpartMask
  refine Finset.sum_congr rfl fun r _ => ?_
  by_cases hr : r.val < n
  · obtain ⟨ha, hb, hw⟩ := h r hr
    rw [if_pos hr, if_pos hr]
    unfold bloss bhinge bdsq
    simp only [ha, hb, hw]
  · rw [if_neg hr, if_neg hr]

/-- Counting every row is counting the first `n` when the block has no more than `n` rows. -/
theorem rpartAll_eq_mask {T : Nat} (n : Nat) (hn : T ≤ n) (A B : Fin T → Fin 256 → EReal) (W : Fin T → EReal) :
    rpartAll A B W = rpartMask n A B W := by
  unfold rpartAll rpartMask
  exact Finset.sum_congr rfl fun r _ => (if_pos (Nat.lt_of_lt_of_le r.isLt hn)).symm

/-- The three buffers the body finds at point `t`, each its block filled out by anything, read by rows, agree with the
    arrays' block `blk t` on the rows inside the array. -/
theorem rows_inside (c : Dev nD) (t : Fin cfg0.N) (d0 d1 : S7864x256.Idx → EReal) (d2 : S7864x1.Idx → EReal)
    (r : Fin 7864) (hr : r.val < valid (blk t)) :
    (∀ q, (win0_0.fill (grid0.coords t) d0 (iblk m c 0 t) (ix2 r q) : EReal) = rA (X0 m c) (blk t) r q)
    ∧ (∀ q, (win0_1.fill (grid0.coords t) d1 (iblk m c 1 t) (ix2 r q) : EReal) = rA (X1 m c) (blk t) r q)
    ∧ (win0_2.fill (grid0.coords t) d2 (iblk m c 2 t) (ix2 r 0) : EReal) = rW (Wt m c) (blk t) r := by
  have hb : (blk t).val < 9 := (blk t).isLt
  have h : 7864 * (blk t).val + r.val < 65536 := by unfold valid at hr; omega
  refine ⟨fun q => ?_, fun q => ?_, ?_⟩
  · rw [fill_row0 m c t d0 r q h]; unfold rA; rw [dif_pos h]
  · rw [fill_row1 m c t d1 r q h]; unfold rA; rw [dif_pos h]
  · rw [fill_row2 m c t d2 r h]; unfold rW; rw [dif_pos h]

/-- The masked store, whatever fills the buffers past the array's end, is the block's reduced loss in every entry. -/
theorem stored_last (c : Dev nD) (t : Fin cfg0.N) (d0 d1 : S7864x256.Idx → EReal) (d2 : S7864x1.Idx → EReal) :
    outLast (grid0.coords t) (win0_0.fill (grid0.coords t) d0 (iblk m c 0 t)) (win0_1.fill (grid0.coords t) d1 (iblk m c 1 t))
        (win0_2.fill (grid0.coords t) d2 (iblk m c 2 t)) = fun _ => blockVal m c t := by
  rw [outLast_eq]
  funext e
  rw [pay2_eq, coord_eq t]
  exact rpartMask_congr (valid (blk t)) fun r hr => rows_inside m c t d0 d1 d2 r hr

/-- The plain store at a point whose block lies inside the array likewise. -/
theorem stored_rest (c : Dev nD) (t : Fin cfg0.N) (ht : t.val ≠ 8) (d0 d1 : S7864x256.Idx → EReal) (d2 : S7864x1.Idx → EReal) :
    outRest (win0_0.fill (grid0.coords t) d0 (iblk m c 0 t)) (win0_1.fill (grid0.coords t) d1 (iblk m c 1 t))
        (win0_2.fill (grid0.coords t) d2 (iblk m c 2 t)) = fun _ => blockVal m c t := by
  rw [outRest_eq]
  funext e
  have hb : (blk t).val = t.val := rfl
  have ht9 : t.val < 9 := (blk t).isLt
  rw [pay3_eq, rpartAll_eq_mask (valid (blk t)) (by unfold valid; omega)]
  exact rpartMask_congr (valid (blk t)) fun r hr => rows_inside m c t d0 d1 d2 r hr

/-! ## Which store happens where -/

theorem cond1_iff : ∀ t : Fin cfg0.N, k0_cond1 (grid0.coords t) = 1#1 ↔ t.val = 8 :=
  (by decide +kernel : ∀ t : Fin grid0.N, k0_cond1 (grid0.coords t) = 1#1 ↔ t.val = 8)
theorem cond2_iff : ∀ t : Fin cfg0.N, k0_cond2 (grid0.coords t) = 1#1 ↔ t.val ≠ 8 :=
  (by decide +kernel : ∀ t : Fin grid0.N, k0_cond2 (grid0.coords t) = 1#1 ↔ t.val ≠ 8)
/-- One of the two stores happens at every point: the output window is never idle. -/
theorem busy3 : ∀ t : Fin cfg0.N, idle0 3 (grid0.coords t) = false :=
  (by decide +kernel : ∀ t : Fin grid0.N, idle0 3 (grid0.coords t) = false)

/-! ## What the body finds -/

theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) :
    (dats m 0 c).before 2 t d = win0_2.fill (grid0.coords t) d (iblk m c 2 t) := by
  unfold Dat.before; rw [if_pos (fetch0_2 t)]; rfl

/-! ## The body obligation -/

theorem body_obligation (c : Dev nD) : BodyObligationLoose (dats m 0 c) (defs₀ (F := Ideal)) Variants.none () Set.univ := fun t => by
  rw [bigSep_W0, bigSep_W0]
  simp only [busy3 t]
  rw [show (dats m 0 c).Φ t.succ = (dats m 0 c).Φ t.castSucc from rfl,
    show (dats m 0 c).owesAt () t.succ = (dats m 0 c).owesAt () t.castSucc from rfl]
  -- the inputs' buffers come back holding their blocks on the rows inside the array, which is all that is asked of them
  have hx0 : (cfg0.win 0).cut (cfg0.grid.coords t) ((dats m 0 c).after 0 t) = iblk m c 0 t := by
    rw [after_0]; exact win0_0.cut_fill _ _ _
  have hx1 : (cfg0.win 1).cut (cfg0.grid.coords t) ((dats m 0 c).after 1 t) = iblk m c 1 t := by
    rw [after_1]; exact win0_1.cut_fill _ _ _
  have hx2 : (cfg0.win 2).cut (cfg0.grid.coords t) ((dats m 0 c).after 2 t) = iblk m c 2 t := by
    rw [after_2]; exact win0_2.cut_fill _ _ _
  rw [hx0, hx1, hx2, after_3]
  change _ ⊢ wp _ _ _ (bodyAt0 t) _
  iintro ⟨HΦ, Ho, ⟨%d0, H0⟩, ⟨%d1, H1⟩, ⟨%d2, H2⟩, ⟨%d3, H3⟩⟩
  rw [before_0 m c t d0, before_1 m c t d1, before_2 m c t d2]
  by_cases h8 : t.val = 8
  · -- the last point: the masked store
    iapply (sound_last c Set.univ (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      ((cond1_iff t).mpr h8) (fun h => (cond2_iff t).mp h h8)
      (win0_0.fill (grid0.coords t) d0 (iblk m c 0 t)) (win0_1.fill (grid0.coords t) d1 (iblk m c 1 t))
      (win0_2.fill (grid0.coords t) d2 (iblk m c 2 t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexists d0; iexact H0
    isplitl [H1]; · iexists d1; iexact H1
    isplitl [H2]; · iexists d2; iexact H2
    rw [stored_last m c t d0 d1 d2]; iexact H3
  · -- any other point: the plain store
    iapply (sound_rest c Set.univ (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (fun h => h8 ((cond1_iff t).mp h)) ((cond2_iff t).mpr h8)
      (win0_0.fill (grid0.coords t) d0 (iblk m c 0 t)) (win0_1.fill (grid0.coords t) d1 (iblk m c 1 t))
      (win0_2.fill (grid0.coords t) d2 (iblk m c 2 t)) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexists d0; iexact H0
    isplitl [H1]; · iexists d1; iexact H1
    isplitl [H2]; · iexists d2; iexact H2
    rw [stored_rest m c t h8 d0 d1 d2]; iexact H3

/-! ## The run and the frame -/

-- the launch theorem's implicit arguments are found by unifying its conclusion with this one, which takes unfolding plain
-- definitions in a metavariable's type
set_option backward.isDefEq.respectTransparency.types false in
/-- From any memory with zero counters every weakly fair execution of @main terminates; every array of the region ends at
    what the proof data computes and every other buffer at what the lines after the region leave in it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and leaves its three arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Loss.Ref

end
-- ==== Proof.RefValue.lean ====
/-
  The 7864-row program's result as a function of its arguments. After the region the 72 × 128 result array holds, in
  rows 8 j … 8 j + 7, block j's reduced loss; the lines after the region take entry (8 j, 0) of each block, add the 9
  numbers to the zero word and scale by 2⁻¹⁷.
-/
import proofs.«155596_g2000500922530033_pallasbulk_741_2_alg».proof.Proof.RefData
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.ValueLayout
import Idealize.ShloMosaic.Lib.StableHlo.Run

noncomputable section

open scoped BigOperators

namespace Cert.Loss.Ref

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## The result array after the region -/

/-- The result window's block at point t is block (t, 0) of the 72 × 128 array: rows 8 t … 8 t + 7, all 128 columns. -/
theorem outBlock_index : ∀ t : Fin cfg0.N, win0_3.index t (0 : Fin 2) = t.val ∧ win0_3.index t (1 : Fin 2) = 0 :=
  (by decide +kernel : ∀ t : Fin grid0.N, _)

/-- Row r of the 72 lies in block r / 8, one of the 9. -/
theorem rowBlock_lt (i : S72x128.Idx) : (i 0).val / 8 < cfg0.N := by
  have h : (i 0).val < 72 := (i 0).isLt
  rw [show cfg0.N = 9 from N_0]
  omega

/-- The whole result array as one function of the arrays the region finds: entry (r, b) is the reduced loss of
    block r / 8. -/
def lossOfRow (c : Dev nD) : S72x128.Idx → EReal := fun i => blockVal m c ⟨(i 0).val / 8, rowBlock_lt i⟩

/-- What point t writes back is block t of `lossOfRow`: the buffer holds block t's reduced loss in every entry, and
    every row 8 t + a of block t has (8 t + a) / 8 = t. -/
theorem writeback_eq (c : Dev nD) (t : Fin cfg0.N) :
    (dats m 0 c).flushed 3 t = ((cfg0.win 3).blk t).view.read (Elt Ideal) (lossOfRow m c) := by
  show (cfg0.win 3).cut (grid0.coords t) ((dats m 0 c).after 3 t) = _
  rw [after_3]
  funext j
  show blockVal m c t = lossOfRow m c (((cfg0.win 3).blk t).view.emb j)
  unfold lossOfRow
  congr 1
  apply Fin.ext
  have hj : (j 0).val < 8 := (j 0).isLt
  show t.val = (win0_3.index t (0 : Fin 2) * 8 + 1 * (j 0).val) / 8
  rw [(outBlock_index t).1]
  omega

/-- An entry of the array lies in point t's block iff each coordinate lies in the block's range on its axis. -/
theorem mem_outBlock (t : Fin cfg0.N) (i : S72x128.Idx) :
    i ∈ ((cfg0.win 3).blk t).view.set
      ↔ ∀ a : Fin 2, win0_3.index t a * S8x128.size a ≤ (i a).val ∧ (i a).val < win0_3.index t a * S8x128.size a + S8x128.size a := by
  show i ∈ ((View.whole main_v1).slice (win0_3.rect t)).set ↔ _
  rw [View.set_slice_whole, Rect.mem_set_unit]
  exact Iff.rfl

/-- The 9 blocks of 8 rows cover the 72 rows: entry (r, b) lies in the block of point r / 8, which is written back. -/
theorem outBlocks_cover (i : S72x128.Idx) :
    ∃ t : Fin cfg0.N, (cfg0.win 3).flush t = true ∧ i ∈ ((cfg0.win 3).blk t).view.set := by
  have h0 : (i 0).val < 72 := (i 0).isLt
  have h1 : (i 1).val < 128 := (i 1).isLt
  refine ⟨⟨(i 0).val / 8, rowBlock_lt i⟩, flush0_3 _, ?_⟩
  rw [mem_outBlock]
  intro a
  obtain ⟨e0, e1⟩ := outBlock_index ⟨(i 0).val / 8, rowBlock_lt i⟩
  match a with
  | ⟨0, _⟩ =>
    show win0_3.index _ (0 : Fin 2) * 8 ≤ (i 0).val ∧ (i 0).val < win0_3.index _ (0 : Fin 2) * 8 + 8
    rw [e0]; dsimp only; omega
  | ⟨1, _⟩ =>
    show win0_3.index _ (1 : Fin 2) * 128 ≤ (i 1).val ∧ (i 1).val < win0_3.index _ (1 : Fin 2) * 128 + 128
    rw [e1]; omega

/-- So after the last point the result array is `lossOfRow`. -/
theorem resultArr_eq (c : Dev nD) : (dats m 0 c).arrAt 3 cfg0.N = lossOfRow m c :=
  (dats m 0 c).arrAt_eq_of_cover 3 (lossOfRow m c) (fun t _ => writeback_eq m c t) outBlocks_cover

/-! ## The lines after the region, read at an entry -/

/-- Reshape 72 × 128 to 9 × 8 × 128, take entries (·, 0, 0), reshape to 9: entry k is the array's entry (8 k, 0), since
    (k, 0, 0) sits at row-major position (8 k) · 128 of the 72 × 128 array. -/
theorem firstEntry_apply (A : S72x128.Idx → EReal) (k : Fin 9) (j : S9.Idx) (hj : (j 0).val = k.val) :
    shapeCast S9 (extractStridedSlice S9x1x1 ![0, 0, 0] (shapeCast S9x8x128 A shapeCasts_S72x128_S9x8x128)
        slices_S9x8x128_S9x1x1_0_0_0) shapeCasts_S9x1x1_S9 j
      = A (ix2 (⟨8 * k.val, by omega⟩ : Fin 72) (0 : Fin 128)) := by
  refine (shapeCast_apply _ _ j (ix3 k (0 : Fin 1) (0 : Fin 1)) ?_).trans ?_
  · rw [Shape.rowMajor_val_three, Shape.rowMajor_val_one]
    show (k.val * 1 + 0) * 1 + 0 = (j 0).val
    omega
  refine (extractStridedSlice_apply _ _ _ (ix3 k (0 : Fin 1) (0 : Fin 1)) (ix3 k (0 : Fin 8) (0 : Fin 128)) ?_).trans ?_
  · intro a
    match a with
    | ⟨0, _⟩ => show k.val = 0 + k.val; omega
    | ⟨1, _⟩ => rfl
    | ⟨2, _⟩ => rfl
  refine shapeCast_apply _ _ (ix3 k (0 : Fin 8) (0 : Fin 128)) (ix2 (⟨8 * k.val, by omega⟩ : Fin 72) (0 : Fin 128)) ?_
  rw [Shape.rowMajor_val_two, Shape.rowMajor_val_three]
  show 8 * k.val * 128 + 0 = (k.val * 8 + 0) * 128 + 0
  omega

/-! ## The arrays the region finds are the arguments -/

/-- No line before the region writes the two 65536 × 256 arrays. -/
theorem X0_eq (c : Dev nD) : X0 m c = rows (m ((c : Thread nD τ).loc main_arg0)) := by
  funext R q
  exact congrFun (V_main_arg0 m c) (ix2 R q)
theorem X1_eq (c : Dev nD) : X1 m c = rows (m ((c : Thread nD τ).loc main_arg1)) := by
  funext R q
  exact congrFun (V_main_arg1 m c) (ix2 R q)

/-- The weight column is the third argument: the one line before the region reshapes the 65536 weights into a
    65536 × 1 column, whose entry (R, 0) is weight R (both sit at row-major position R). -/
theorem Wt_eq (c : Dev nD) : Wt m c = rows1 (m ((c : Thread nD τ).loc main_arg2)) := by
  have e : (V m c main_v0 : S65536x1.Idx → EReal)
      = shapeCast S65536x1 (m ((c : Thread nD τ).loc main_arg2) : S65536.Idx → EReal) shapeCasts_S65536_S65536x1 := by
    show StableHlo.after hostOps0 (fun b => m (c, b)) (Proc.devRef .tc main_v0) = _
    after_results
    rfl
  funext R
  unfold Wt rows1
  rw [e]
  refine shapeCast_apply _ _ (ix2 R (0 : Fin 1)) (ix1 R) ?_
  rw [Shape.rowMajor_val_one, Shape.rowMajor_val_two]
  show R.val = R.val * 1 + 0
  omega

/-- Entry (8 k, 0) of the result array is block k's reduced loss of the argument arrays: (8 k) / 8 = k. -/
theorem lossOfRow_first (c : Dev nD) (k : Fin 9) :
    lossOfRow m c (ix2 (⟨8 * k.val, by omega⟩ : Fin 72) (0 : Fin 128))
      = rpartMask (valid k) (rA (rows (m ((c : Thread nD τ).loc main_arg0))) k)
          (rA (rows (m ((c : Thread nD τ).loc main_arg1))) k) (rW (rows1 (m ((c : Thread nD τ).loc main_arg2))) k) := by
  unfold lossOfRow blockVal
  have hk : blk ⟨(ix2 (⟨8 * k.val, by omega⟩ : Fin 72) (0 : Fin 128) 0).val / 8, rowBlock_lt _⟩ = k := by
    apply Fin.ext
    show 8 * k.val / 8 = k.val
    omega
  rw [hk, X0_eq, X1_eq, Wt_eq]

/-! ## The result -/

/-- What the lines after the region leave in the result, computed from the region's proof data: the 9 blocks' reduced
    losses of the argument arrays, added to the zero word and scaled. -/
theorem tail_eq (c : Dev nD) :
    (Pipeline.afterTail₀ cfgs (dats m) 0 (V0 m) [hostOps1] c main_v6 : S_.Idx → EReal)
      = fun _ => final (rtotal (rows (m ((c : Thread nD τ).loc main_arg0))) (rows (m ((c : Thread nD τ).loc main_arg1)))
          (rows1 (m ((c : Thread nD τ).loc main_arg2)))) := by
  unfold Pipeline.afterTail₀
  show StableHlo.after hostOps1 _ (Proc.devRef .tc main_v6) = _
  after_results
  -- the result array as the lines after the region find it
  have hw : Pipeline.withArrays (cfgs 0).spec c (V0 m c) (fun w => (dats m 0 c).arrAt w (cfgs 0).N)
      (Proc.devRef .tc main_v1) = lossOfRow m c :=
    (Pipeline.withArrays_arr spec0 launch0.win.arr_inj c _ _ 3).trans (resultArr_eq m c)
  funext x
  -- the product with 2⁻¹⁷ of the sum, started from the zero word, over the 9 entries
  show Ideal.hostReduceAdd reducesTo_S9_S_d0 _ zero x * scale = _
  rw [Ideal.hostReduceAdd_total reducesTo_S9_S_d0 (fun b => b.elim0)]
  rw [← Equiv.sum_comp (idxEquiv1 (n := 9)).symm]
  unfold final rtotal
  refine congrArg (fun s => (zero + s) * scale) (Finset.sum_congr rfl fun k _ => ?_)
  refine (firstEntry_apply _ k (ix1 k) rfl).trans ?_
  rw [hw]
  exact lossOfRow_first m c k

end Cert.Loss.Ref

end
-- ==== Proof.RefRun.lean ====
/-
  The nine-block program's run with its result named: the region's run leaves in the result buffer what the lines
  after the region compute from the region's result array, which is the nine blocks' reduced losses added up and scaled;
  the three arguments end as they were.
-/
import proofs.«155596_g2000500922530033_pallasbulk_741_2_alg».proof.Proof.RefFrame
import proofs.«155596_g2000500922530033_pallasbulk_741_2_alg».proof.Proof.RefValue

noncomputable section

namespace Cert.Loss.Ref

open Cert.ReferenceIdeal Cert.ReferenceIdeal.Gen
open Idealize.ShloMosaic Idealize.ShloMosaic.TcCoe
open Idealize.SL Idealize.SL.Sem

variable (m : (ℓ : Loc nD τ sig) → Buf (Elt Ideal) ℓ) (ρ : Dev nD → PrngReg)

/-- Every weakly fair execution terminates with the result at `final (rtotal …)` of the argument arrays and the arguments
    unchanged. -/
theorem run_value : θ_run defs (onTc (τ := τ) (main (F := Ideal))) ⟨m, fun _ => 0, ρ⟩ (fun r => ∀ c : Dev nD,
      r.2.mem ((c.tc : Thread nD τ).loc main_v6)
          = (fun _ => final (rtotal (rows (m ((c : Thread nD τ).loc main_arg0))) (rows (m ((c : Thread nD τ).loc main_arg1)))
              (rows1 (m ((c : Thread nD τ).loc main_arg2)))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Loss.Ref

end
-- ==== Proof.lean ====
/-
  The contrastive loss computed two ways is one number.

  Both programs take x0, x1 : f32[65536, 256] and y : f32[65536] and return

      2⁻¹⁷ · ∑_R ( y R · d R + (1 − y R) · h R ),    d R = ∑_q (x0 R q − x1 R q)²,    h R = max (1 − √(d R)) 0 ².

  The first cuts the rows into 32 blocks of 2048 and reduces a block as (∑ y · (d − h)) + ∑ h; the second cuts them into
  9 blocks of 7864, the last reaching past the array's end, and reduces a block as ∑ (y · d + (1 − y) · h) over its rows
  inside the array. Row by row  y · d + (1 − y) · h = h + y · (d − h)  holds for real numbers (it distributes a product over
  a difference, which fails at the infinities), so the equality of the two results uses that every input is finite; the
  regrouping of the 65536 rows is associativity and commutativity of the sum.

  The frames: each program runs to the end and leaves its arguments as they were. The idealized first program is its own
  text read over the extended reals (no operation was rewritten), so there is nothing to preserve.
-/
import proofs.«155596_g2000500922530033_pallasbulk_741_2_alg».proof.Defs
import proofs.«155596_g2000500922530033_pallasbulk_741_2_alg».proof.Proof.Gen.Kernel
import proofs.«155596_g2000500922530033_pallasbulk_741_2_alg».proof.Proof.Gen.Kernel.Skeleton
import proofs.«155596_g2000500922530033_pallasbulk_741_2_alg».proof.Proof.Gen.Kernel.Launch
import proofs.«155596_g2000500922530033_pallasbulk_741_2_alg».proof.Proof.Gen.Kernel.Points
import proofs.«155596_g2000500922530033_pallasbulk_741_2_alg».proof.Proof.Gen.Kernel.Frame
import proofs.«155596_g2000500922530033_pallasbulk_741_2_alg».proof.Proof.Gen.KernelIdeal
import proofs.«155596_g2000500922530033_pallasbulk_741_2_alg».proof.Proof.Gen.KernelIdeal.Skeleton
import proofs.«155596_g2000500922530033_pallasbulk_741_2_alg».proof.Proof.Gen.KernelIdeal.Launch
import proofs.«155596_g2000500922530033_pallasbulk_741_2_alg».proof.Proof.Gen.KernelIdeal.Points
import proofs.«155596_g2000500922530033_pallasbulk_741_2_alg».proof.Proof.Gen.KernelIdeal.Frame
import proofs.«155596_g2000500922530033_pallasbulk_741_2_alg».proof.Proof.Gen.ReferenceIdeal
import proofs.«155596_g2000500922530033_pallasbulk_741_2_alg».proof.Proof.Gen.ReferenceIdeal.Skeleton
import proofs.«155596_g2000500922530033_pallasbulk_741_2_alg».proof.Proof.Gen.ReferenceIdeal.Launch
import proofs.«155596_g2000500922530033_pallasbulk_741_2_alg».proof.Proof.Gen.ReferenceIdeal.Points
import proofs.«155596_g2000500922530033_pallasbulk_741_2_alg».proof.Proof.Gen.ReferenceIdeal.Frame
import proofs.«155596_g2000500922530033_pallasbulk_741_2_alg».proof.Proof.Gen.Pre_finite_inputs
import proofs.«155596_g2000500922530033_pallasbulk_741_2_alg».proof.Proof.SpecLaw
import proofs.«155596_g2000500922530033_pallasbulk_741_2_alg».proof.Proof.Finite
import proofs.«155596_g2000500922530033_pallasbulk_741_2_alg».proof.Proof.KernelRun
import proofs.«155596_g2000500922530033_pallasbulk_741_2_alg».proof.Proof.RefRun
import Idealize.ShloMosaic.Adequacy
import Idealize.ShloMosaic.Init

noncomputable section

namespace Cert.Proof

open Idealize.ShloMosaic Idealize.SL.Sem Cert.Loss

/-- Each program runs and leaves its arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.Loss.Ref.frame m ρ

/-- From memories that agree on finite arguments the two idealized programs end with the same number: the 32 blocks'
    and the 9 blocks' reduced losses add up alike (`Cert.Loss.total_eq`), and both are added to the zero word and scaled
    by 2⁻¹⁷ the same way. -/
theorem algebraic : Cert.algebraic_KernelIdeal_ReferenceIdeal := by
  intro m ρ m' ρ' hpre hagree
  refine ⟨fun c _ => final (ktotal (rows (m ((c.tc : Thread Cert.KernelIdeal.nD Cert.KernelIdeal.τ).loc Cert.KernelIdeal.main_arg0)))
      (rows (m ((c.tc : Thread Cert.KernelIdeal.nD Cert.KernelIdeal.τ).loc Cert.KernelIdeal.main_arg1)))
      (rows1 (m ((c.tc : Thread Cert.KernelIdeal.nD Cert.KernelIdeal.τ).loc Cert.KernelIdeal.main_arg2)))),
    Cert.Loss.Kern.run_value m ρ, ?_⟩
  refine (θ_run Cert.ReferenceIdeal.defs _ _).mono (fun _ h c => ⟨(h c).1.trans ?_, (h c).2⟩) (Cert.Loss.Ref.run_value m' ρ')
  obtain ⟨f0, f1, f2⟩ := finite_of_pre m hpre c
  have e0 := congrArg rows (hagree c).1
  have e1 := congrArg rows (hagree c).2.1
  have e2 := congrArg rows1 (hagree c).2.2
  funext _
  refine congrArg final ?_
  refine (congrArg₂ (fun a b => rtotal a b _) e0 e1).trans ((congrArg (fun y => rtotal _ _ y) e2).trans ?_)
  exact (total_eq _ _ _ (fun R q => f0 _) (fun R q => f1 _) (fun R => f2 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
